-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x512 : Shape := ⟨3, ![8, 32768, 512]⟩
abbrev S256x512 : Shape := ⟨2, ![256, 512]⟩
abbrev S_ : Shape := ⟨0, ![]⟩

class Facts : Prop where
  bcast_S_S8x32768x512 : S_.BroadcastsInDim S8x32768x512 (![] : Fin 0 → Fin S8x32768x512.rank)
  reducesTo_S8x32768x512_S_d0_1_2 : S8x32768x512.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8x32768x512 .f32) (main_arg1 : FVec F S256x512 .f32) : IVec S_ 1 :=
  let main_v0 : FVec F S8x32768x512 .f32 := Host.absf main_arg0
  let main_cst : FVec F S_ .f32 := constant S_ .f32 0x7F800000#32
  let main_v1 : FVec F S8x32768x512 .f32 := broadcastInDim S8x32768x512 ![] bcast_S_S8x32768x512 main_cst
  let main_v2 : IVec S8x32768x512 1 := cmpf .olt main_v0 main_v1
  let main_c : IVec S_ 1 := constantI S_ 1 1#1
  let main_v3 : IVec S_ 1 := (fun x v => Host.reduce IntOp.andi x v reducesTo_S8x32768x512_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S8x32768x512 : Shape := ⟨3, ![8, 32768, 512]⟩
abbrev S256x512 : Shape := ⟨2, ![256, 512]⟩
abbrev S8x256x512 : Shape := ⟨3, ![8, 256, 512]⟩
abbrev S1x4096x512 : Shape := ⟨3, ![1, 4096, 512]⟩
abbrev S1x256x512 : Shape := ⟨3, ![1, 256, 512]⟩
abbrev S256x1 : Shape := ⟨2, ![256, 1]⟩
abbrev S4096x512 : Shape := ⟨2, ![4096, 512]⟩
abbrev S256x4096 : Shape := ⟨2, ![256, 4096]⟩
abbrev S256 : Shape := ⟨1, ![256]⟩

abbrev nBuf : Space → Nat
  | .hbm => 3
  | .vmem => 8
  | .smem => 0
  | _ => 0

abbrev bufTy : (tb : Table) → Fin (tcTables nBuf tb) → BufTy
  | .hbm, ⟨0, _⟩ => ⟨S8x32768x512, .f32⟩
  | .hbm, ⟨1, _⟩ => ⟨S256x512, .f32⟩
  | .hbm, ⟨2, _⟩ => ⟨S8x256x512, .f32⟩
  | .local _ .vmem, ⟨0, _⟩ => ⟨S256x512, .f32⟩
  | .local _ .vmem, ⟨1, _⟩ => ⟨S1x4096x512, .f32⟩
  | .local _ .vmem, ⟨2, _⟩ => ⟨S1x4096x512, .f32⟩
  | .local _ .vmem, ⟨3, _⟩ => ⟨S1x256x512, .f32⟩
  | .local _ .vmem, ⟨4, _⟩ => ⟨S1x256x512, .f32⟩
  | .local _ .vmem, ⟨5, _⟩ => ⟨S256x1, .f32⟩
  | .local _ .vmem, ⟨6, _⟩ => ⟨S256x1, .f32⟩
  | .local _ .vmem, ⟨7, _⟩ => ⟨S256x512, .f32⟩
  | _, _ => ⟨S8x32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_23 : BitVec 32 := 0#32
  let v43 : BitVec 1 := Scalar.cmpi .ne v42 c0_i32_23
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  reduces_S256x4096_S256 : S256x4096.Reduces [1] S256
  shapeCasts_S256_S256x1 : S256.ShapeCasts S256x1
  broadcasts_S256x1_S256x4096 : S256x1.Broadcasts S256x4096
  broadcasts_S256x1_S256x512 : S256x1.Broadcasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x512_S4096x512_S256x4096_1_1_0_0_n_n_wf : DotDims.WF S256x512 S4096x512 S256x4096 [1] [1] [0] [0] [] []
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S8x32768x512.size a
  hwx0_1 : ∀ i : grid0.Coords, EltTy.bits .f32 = 32 ∨ (Rect.block (s := S8x32768x512) S1x4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S8x256x512.size a
  hwx0_2 : ∀ i : grid0.Coords, EltTy.bits .f32 = 32 ∨ (Rect.block (s := S8x256x512) S1x256x512.size (cc0_transform_2 i) (hinb0_2 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg1) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x32768x512 : Shape := ⟨3, ![8, 32768, 512]⟩
abbrev S256x512 : Shape := ⟨2, ![256, 512]⟩
abbrev S8x32768x256 : Shape := ⟨3, ![8, 32768, 256]⟩
abbrev S8x256x32768 : Shape := ⟨3, ![8, 256, 32768]⟩
abbrev S_ : Shape := ⟨0, ![]⟩
abbrev S8x256 : Shape := ⟨2, ![8, 256]⟩
abbrev S8x256x1 : Shape := ⟨3, ![8, 256, 1]⟩
abbrev S8x256x512 : Shape := ⟨3, ![8, 256, 512]⟩

abbrev nBuf : Space → Nat
  | .hbm => 22
  | .vmem => 0
  | .smem => 0
  | _ => 0

abbrev bufTy : (tb : Table) → Fin (tcTables nBuf tb) → BufTy
  | .hbm, ⟨0, _⟩ => ⟨S8x32768x512, .f32⟩
  | .hbm, ⟨1, _⟩ => ⟨S256x512, .f32⟩
  | .hbm, ⟨2, _⟩ => ⟨S8x32768x256, .f32⟩
  | .hbm, ⟨3, _⟩ => ⟨S8x256x32768, .f32⟩
  | .hbm, ⟨4, _⟩ => ⟨S_, .f32⟩
  | .hbm, ⟨5, _⟩ => ⟨S8x256x32768, .f32⟩
  | .hbm, ⟨6, _⟩ => ⟨S8x256x32768, .f32⟩
  | .hbm, ⟨7, _⟩ => ⟨S_, .f32⟩
  | .hbm, ⟨8, _⟩ => ⟨S8x256, .f32⟩
  | .hbm, ⟨9, _⟩ => ⟨S_, .f32⟩
  | .hbm, ⟨10, _⟩ => ⟨S8x256, .f32⟩
  | .hbm, ⟨11, _⟩ => ⟨S8x256, .f32⟩
  | .hbm, ⟨12, _⟩ => ⟨S8x256x1, .f32⟩
  | .hbm, ⟨13, _⟩ => ⟨S8x256x32768, .f32⟩
  | .hbm, ⟨14, _⟩ => ⟨S8x256x32768, .f32⟩
  | .hbm, ⟨15, _⟩ => ⟨S8x256x32768, .f32⟩
  | .hbm, ⟨16, _⟩ => ⟨S_, .f32⟩
  | .hbm, ⟨17, _⟩ => ⟨S8x256, .f32⟩
  | .hbm, ⟨18, _⟩ => ⟨S8x256x1, .f32⟩
  | .hbm, ⟨19, _⟩ => ⟨S8x256x32768, .f32⟩
  | .hbm, ⟨20, _⟩ => ⟨S8x256x32768, .f32⟩
  | .hbm, ⟨21, _⟩ => ⟨S8x256x512, .f32⟩
  | _, _ => ⟨S8x32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S8x32768x256_S8x256x32768_0_2_1 : S8x32768x256.Transposes [0, 2, 1] S8x256x32768
  bcast_S_S8x256x32768 : S_.BroadcastsInDim S8x256x32768 (![] : Fin 0 → Fin S8x256x32768.rank)
  reducesTo_S8x256x32768_S8x256_d2 : S8x256x32768.ReducesTo [2] S8x256
  h_S_ : 0 < S_.numel
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  bcast_S8x256x1_S8x256x32768_0_1_2 : S8x256x1.BroadcastsInDim S8x256x32768 (![0, 1, 2] : Fin 3 → Fin S8x256x32768.rank)
  dot_S8x32768x512_S256x512_S8x32768x256_2_1_01_0_n_n_wf : DotDims.WF S8x32768x512 S256x512 S8x32768x256 [2] [1] [0, 1] [0] [] []
  dot_S8x256x32768_S8x32768x512_S8x256x512_2_1_1_2_0_0_wf : DotDims.WF S8x256x32768 S8x32768x512 S8x256x512 [2] [1] [1] [2] [0] [0]

variable [Facts₀]

def dot_S8x32768x512_S256x512_S8x32768x256_2_1_01_0_n_n : DotDims S8x32768x512 S256x512 S8x32768x256 where
  lhsContracting := [2]
  rhsContracting := [1]
  lhsNonContracting := [0, 1]
  rhsNonContracting := [0]
  lhsBatch := []
  rhsBatch := []
  wf := dot_S8x32768x512_S256x512_S8x32768x256_2_1_01_0_n_n_wf
def dot_S8x256x32768_S8x32768x512_S8x256x512_2_1_1_2_0_0 : DotDims S8x256x32768 S8x32768x512 S8x256x512 where
  lhsContracting := [2]
  rhsContracting := [1]
  lhsNonContracting := [1]
  rhsNonContracting := [2]
  lhsBatch := [0]
  rhsBatch := [0]
  wf := dot_S8x256x32768_S8x32768x512_S8x256x512_2_1_1_2_0_0_wf

class Facts : Prop extends Facts₀ where

variable [Facts]
-- ==== Proof.Step.lean ====
import proofs.«132561_j30648886624911_2_alg».proof.Proof.Gen.KernelIdeal.Skeleton

/-! # One grid point of the pooling kernel as pure functions of what it reads

At a grid point the body reads the query block `q`, a tile `xt` of 4096 token rows, and the three carried arrays: the
running shift `ms` (one per query row), the shifted sum of weights `ls`, and the shifted weighted sum of rows `accs`.
It leaves a new shift, a new sum of weights and a new weighted sum, each one pure function of those; at the last tile
of a batch it also writes the quotient of the new weighted sum by the new sum of weights. These are those functions,
at any float instance, spelled with the body's own named values. -/

noncomputable section

namespace Cert.KernelIdeal.Step

open Cert.KernelIdeal Cert.KernelIdeal.Gen Idealize.ShloMosaic

variable {F : FTy → Type} [FloatOps F]

/-- The new running shift: the old one against the largest logit of the tile, row by row. -/
def newShift (q : Vec F S256x512 .f32) (xt : Vec F S1x4096x512 .f32) (ms : Vec F S256x1 .f32) : Vec F S256x1 .f32 :=
  k0_pay2 (k0_pay9 q xt ms)

/-- The new sum of weights: the old one rescaled to the new shift, plus the tile's weights. -/
def newWeight (q : Vec F S256x512 .f32) (xt : Vec F S1x4096x512 .f32) (ms ls : Vec F S256x1 .f32) : Vec F S256x1 .f32 :=
  k0_pay12 q xt ms ms ls

/-- The new weighted sum of token rows: the old one rescaled, plus the tile's rows under their weights. -/
def newSum (q : Vec F S256x512 .f32) (xt : Vec F S1x4096x512 .f32) (ms : Vec F S256x1 .f32) (accs : Vec F S256x512 .f32) :
    Vec F S256x512 .f32 :=
  k0_pay1 (k0_pay13 q xt ms) (k0_pay14 q xt ms ms accs)

/-- The block written at a batch's last tile: the weighted sum over the sum of weights. -/
def quotient (acc : Vec F S256x512 .f32) (l : Vec F S256x1 .f32) : Vec F S1x256x512 .f32 :=
  k0_pay3 acc l

/-- The reset values of the three carried arrays. -/
abbrev shift0 : Vec F S256x1 .f32 := k0_pay4 (F := F)
abbrev weight0 : Vec F S256x1 .f32 := k0_pay5 (F := F)
abbrev sum0 : Vec F S256x512 .f32 := k0_pay6 (F := F)

end Cert.KernelIdeal.Step

end
-- ==== Proof.Pieces.lean ====
import proofs.«132561_j30648886624911_2_alg».proof.Proof.Gen.KernelIdeal.Frame
import proofs.«132561_j30648886624911_2_alg».proof.Proof.Step
import Idealize.ShloMosaic.Lib.Pipeline.Value

/-! # What each kind of grid point leaves in the carried arrays and in the output block

A grid point is of one of three kinds: the first tile of a batch (the carried arrays are reset, then updated from the
reset values), a middle tile (updated from what the point before left), the last tile (updated likewise, and the
quotient written to the output block). For each kind and each array, what the body's stores leave — read back as one
array — is the pure step function of the blocks the point reads: the stores cover each array whole, and a value loaded
after a store in the same point is the stored value. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Step

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves the new running shift. -/
theorem left_B_0 (c : Dev nD) (i : grid0.Coords) (arg2 : Memref sig .tc .vmem S256x512 .f32) (harg2 : arg2.IsWhole) (arg3 : Memref sig .tc .vmem S1x4096x512 .f32) (harg3 : arg3.IsWhole) (arg4 : Memref sig .tc .vmem S1x256x512 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S1x4096x512 .f32) (xs0 : Vec F S256x1 .f32) (xs1 : Vec F S256x1 .f32) (xs2 : Vec F S256x512 .f32) :
    sout0_B_0 c i arg2 harg2 arg3 harg3 arg4 harg4 arg5 harg5 arg6 harg6 arg7 harg7 hc0 hc1 x0 x1 xs0 xs1 xs2 = newShift x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread,
    View.ld_unit_zero (S := S256x512) hz2, View.ld_unit_zero (S := S256x1) hz2, View.ld_unit_zero (S := S1x4096x512) hz3, View.ld_unit_zero (S := S1x256x512) hz3,
    View.readCov_unit_zero (S := S256x1) _ hz2, View.readCov_unit_zero (S := S256x512) _ hz2]
  rfl

/-- A middle tile leaves the new sum of weights. -/
theorem left_B_1 (c : Dev nD) (i : grid0.Coords) (arg2 : Memref sig .tc .vmem S256x512 .f32) (harg2 : arg2.IsWhole) (arg3 : Memref sig .tc .vmem S1x4096x512 .f32) (harg3 : arg3.IsWhole) (arg4 : Memref sig .tc .vmem S1x256x512 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S1x4096x512 .f32) (xs0 : Vec F S256x1 .f32) (xs1 : Vec F S256x1 .f32) (xs2 : Vec F S256x512 .f32) :
    sout0_B_1 c i arg2 harg2 arg3 harg3 arg4 harg4 arg5 harg5 arg6 harg6 arg7 harg7 hc0 hc1 x0 x1 xs0 xs1 xs2 = newWeight x0 x1 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread,
    View.ld_unit_zero (S := S256x512) hz2, View.ld_unit_zero (S := S256x1) hz2, View.ld_unit_zero (S := S1x4096x512) hz3, View.ld_unit_zero (S := S1x256x512) hz3,
    View.readCov_unit_zero (S := S256x1) _ hz2, View.readCov_unit_zero (S := S256x512) _ hz2]
  rfl

/-- A middle tile leaves the new weighted sum of rows. -/
theorem left_B_2 (c : Dev nD) (i : grid0.Coords) (arg2 : Memref sig .tc .vmem S256x512 .f32) (harg2 : arg2.IsWhole) (arg3 : Memref sig .tc .vmem S1x4096x512 .f32) (harg3 : arg3.IsWhole) (arg4 : Memref sig .tc .vmem S1x256x512 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S1x4096x512 .f32) (xs0 : Vec F S256x1 .f32) (xs1 : Vec F S256x1 .f32) (xs2 : Vec F S256x512 .f32) :
    sout0_B_2 c i arg2 harg2 arg3 harg3 arg4 harg4 arg5 harg5 arg6 harg6 arg7 harg7 hc0 hc1 x0 x1 xs0 xs1 xs2 = newSum x0 x1 xs0 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread,
    View.ld_unit_zero (S := S256x512) hz2, View.ld_unit_zero (S := S256x1) hz2, View.ld_unit_zero (S := S1x4096x512) hz3, View.ld_unit_zero (S := S1x256x512) hz3,
    View.readCov_unit_zero (S := S256x1) _ hz2, View.readCov_unit_zero (S := S256x512) _ hz2]
  rfl

/-- The last tile leaves the new running shift. -/
theorem left_C_0 (c : Dev nD) (i : grid0.Coords) (arg2 : Memref sig .tc .vmem S256x512 .f32) (harg2 : arg2.IsWhole) (arg3 : Memref sig .tc .vmem S1x4096x512 .f32) (harg3 : arg3.IsWhole) (arg4 : Memref sig .tc .vmem S1x256x512 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S1x4096x512 .f32) (xs0 : Vec F S256x1 .f32) (xs1 : Vec F S256x1 .f32) (xs2 : Vec F S256x512 .f32) :
    sout0_C_0 c i arg2 harg2 arg3 harg3 arg4 harg4 arg5 harg5 arg6 harg6 arg7 harg7 hc0 hc1 x0 x1 xs0 xs1 xs2 = newShift x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread,
    View.ld_unit_zero (S := S256x512) hz2, View.ld_unit_zero (S := S256x1) hz2, View.ld_unit_zero (S := S1x4096x512) hz3, View.ld_unit_zero (S := S1x256x512) hz3,
    View.readCov_unit_zero (S := S256x1) _ hz2, View.readCov_unit_zero (S := S256x512) _ hz2]
  rfl

/-- The last tile leaves the new sum of weights. -/
theorem left_C_1 (c : Dev nD) (i : grid0.Coords) (arg2 : Memref sig .tc .vmem S256x512 .f32) (harg2 : arg2.IsWhole) (arg3 : Memref sig .tc .vmem S1x4096x512 .f32) (harg3 : arg3.IsWhole) (arg4 : Memref sig .tc .vmem S1x256x512 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S1x4096x512 .f32) (xs0 : Vec F S256x1 .f32) (xs1 : Vec F S256x1 .f32) (xs2 : Vec F S256x512 .f32) :
    sout0_C_1 c i arg2 harg2 arg3 harg3 arg4 harg4 arg5 harg5 arg6 harg6 arg7 harg7 hc0 hc1 x0 x1 xs0 xs1 xs2 = newWeight x0 x1 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread,
    View.ld_unit_zero (S := S256x512) hz2, View.ld_unit_zero (S := S256x1) hz2, View.ld_unit_zero (S := S1x4096x512) hz3, View.ld_unit_zero (S := S1x256x512) hz3,
    View.readCov_unit_zero (S := S256x1) _ hz2, View.readCov_unit_zero (S := S256x512) _ hz2]
  rfl

/-- The last tile leaves the new weighted sum of rows. -/
theorem left_C_2 (c : Dev nD) (i : grid0.Coords) (arg2 : Memref sig .tc .vmem S256x512 .f32) (harg2 : arg2.IsWhole) (arg3 : Memref sig .tc .vmem S1x4096x512 .f32) (harg3 : arg3.IsWhole) (arg4 : Memref sig .tc .vmem S1x256x512 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S1x4096x512 .f32) (xs0 : Vec F S256x1 .f32) (xs1 : Vec F S256x1 .f32) (xs2 : Vec F S256x512 .f32) :
    sout0_C_2 c i arg2 harg2 arg3 harg3 arg4 harg4 arg5 harg5 arg6 harg6 arg7 harg7 hc0 hc1 x0 x1 xs0 xs1 xs2 = newSum x0 x1 xs0 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread,
    View.ld_unit_zero (S := S256x512) hz2, View.ld_unit_zero (S := S256x1) hz2, View.ld_unit_zero (S := S1x4096x512) hz3, View.ld_unit_zero (S := S1x256x512) hz3,
    View.readCov_unit_zero (S := S256x1) _ hz2, View.readCov_unit_zero (S := S256x512) _ hz2]
  rfl

/-- The last tile writes the quotient of the new weighted sum by the new sum of weights: both are loaded after their
    stores in the same point, so they are the stored values. -/
theorem left_C_out (c : Dev nD) (i : grid0.Coords) (arg2 : Memref sig .tc .vmem S256x512 .f32) (harg2 : arg2.IsWhole) (arg3 : Memref sig .tc .vmem S1x4096x512 .f32) (harg3 : arg3.IsWhole) (arg4 : Memref sig .tc .vmem S1x256x512 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S1x4096x512 .f32) (xs0 : Vec F S256x1 .f32) (xs1 : Vec F S256x1 .f32) (xs2 : Vec F S256x512 .f32) :
    out0_C_2 c i arg2 harg2 arg3 harg3 arg4 harg4 arg5 harg5 arg6 harg6 arg7 harg7 hc0 hc1 x0 x1 xs0 xs1 xs2 = quotient (newSum x0 x1 xs0 xs2) (newWeight x0 x1 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread,
    View.ld_unit_zero (S := S256x512) hz2, View.ld_unit_zero (S := S256x1) hz2, View.ld_unit_zero (S := S1x4096x512) hz3, View.ld_unit_zero (S := S1x256x512) hz3,
    View.readCov_unit_zero (S := S256x1) _ hz2, View.readCov_unit_zero (S := S256x512) _ hz2]
  rfl
/-- The first tile leaves the new running shift over the reset one. -/
theorem left_A_0 (c : Dev nD) (i : grid0.Coords) (arg2 : Memref sig .tc .vmem S256x512 .f32) (harg2 : arg2.IsWhole) (arg3 : Memref sig .tc .vmem S1x4096x512 .f32) (harg3 : arg3.IsWhole) (arg4 : Memref sig .tc .vmem S1x256x512 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S1x4096x512 .f32) :
    sout0_A_0 c i arg2 harg2 arg3 harg3 arg4 harg4 arg5 harg5 arg6 harg6 arg7 harg7 hc0 hc1 x0 x1 = newShift x0 x1 (shift0 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S256x1) hz2, View.readCov_unit_zero (S := S256x1) _ hz2]
  simp only [View.readAt_eq_ld, harg2.read_unread, harg3.read_unread, harg4.read_unread, harg5.read_unread, harg6.read_unread, harg7.read_unread,
    View.ld_unit_zero (S := S256x512) hz2, View.ld_unit_zero (S := S256x1) hz2, View.ld_unit_zero (S := S1x4096x512) hz3, View.ld_unit_zero (S := S1x256x512) hz3,
    View.readCov_unit_zero (S := S256x1) _ hz2, View.readCov_unit_zero (S := S256x512) _ hz2]
  rfl

/-- The first tile leaves the new sum of weights over the reset ones. -/
theorem left_A_1 (c : Dev nD) (i : grid0.Coords) (arg2 : Memref sig .tc .vmem S256x512 .f32) (harg2 : arg2.IsWhole) (arg3 : Memref sig .tc .vmem S1x4096x512 .f32) (harg3 : arg3.IsWhole) (arg4 : Memref sig .tc .vmem S1x256x512 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S1x4096x512 .f32) :
    sout0_A_1 c i arg2 harg2 arg3 harg3 arg4 harg4 arg5 harg5 arg6 harg6 arg7 harg7 hc0 hc1 x0 x1 = newWeight x0 x1 (shift0 (F := F)) (weight0 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S256x1) hz2, View.readCov_unit_zero (S := S256x1) _ hz2]
  simp only [View.readAt_eq_ld, harg2.read_unread, harg3.read_unread, harg4.read_unread, harg5.read_unread, harg6.read_unread, harg7.read_unread,
    View.ld_unit_zero (S := S256x512) hz2, View.ld_unit_zero (S := S256x1) hz2, View.ld_unit_zero (S := S1x4096x512) hz3, View.ld_unit_zero (S := S1x256x512) hz3,
    View.readCov_unit_zero (S := S256x1) _ hz2, View.readCov_unit_zero (S := S256x512) _ hz2]
  rfl

/-- The first tile leaves the new weighted sum of rows over the reset ones. -/
theorem left_A_2 (c : Dev nD) (i : grid0.Coords) (arg2 : Memref sig .tc .vmem S256x512 .f32) (harg2 : arg2.IsWhole) (arg3 : Memref sig .tc .vmem S1x4096x512 .f32) (harg3 : arg3.IsWhole) (arg4 : Memref sig .tc .vmem S1x256x512 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S1x4096x512 .f32) :
    sout0_A_2 c i arg2 harg2 arg3 harg3 arg4 harg4 arg5 harg5 arg6 harg6 arg7 harg7 hc0 hc1 x0 x1 = newSum x0 x1 (shift0 (F := F)) (sum0 (F := F)) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S256x512) hz2, View.readCov_unit_zero (S := S256x512) _ hz2]
  simp only [View.readAt_eq_ld, harg2.read_unread, harg3.read_unread, harg4.read_unread, harg5.read_unread, harg6.read_unread, harg7.read_unread,
    View.ld_unit_zero (S := S256x512) hz2, View.ld_unit_zero (S := S256x1) hz2, View.ld_unit_zero (S := S1x4096x512) hz3, View.ld_unit_zero (S := S1x256x512) hz3,
    View.readCov_unit_zero (S := S256x1) _ hz2, View.readCov_unit_zero (S := S256x512) _ hz2]
  rfl

end Cert.KernelIdeal.Gen

end
-- ==== Proof.Blocks.lean ====
import proofs.«132561_j30648886624911_2_alg».proof.Proof.Gen.KernelIdeal.Value
import proofs.«132561_j30648886624911_2_alg».proof.Proof.Pieces
import Idealize.ShloMosaic.Lib.ValueIdx

/-! # The blocks a grid point reads, and the carried state point by point

The grid is 8 batches by 8 tiles, numbered through: point `t` is tile `t % 8` of batch `t / 8`. The query window's
block is the whole query array at every point. The token window's block at point `t` is rows
`(t % 8) · 4096 … (t % 8) · 4096 + 4095` of batch `t / 8`. The carried state after point `t` — running shift, sum of
weights, weighted sum of rows — is, at a batch's first tile, the step functions of the reset values, and otherwise the
step functions of the state after point `t − 1`; at a batch's last tile the output block holds the quotient of the new
weighted sum by the new sum of weights. -/

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open Cert.KernelIdeal.Step

variable (m : (ℓ : Loc nD τ sig) → Buf (Elt Ideal) ℓ)

/-- The token array and the query array as the region finds them. -/
abbrev xarr (c : Dev nD) : S8x32768x512.Idx → EReal := V m c main_arg0
abbrev qarr (c : Dev nD) : S256x512.Idx → EReal := V m c main_arg1
/-- The query block and the token tile that point `t` reads. -/
abbrev qblk (c : Dev nD) (t : Fin cfg0.N) : S256x512.Idx → EReal := iblk m c 0 t
abbrev xblk (c : Dev nD) (t : Fin cfg0.N) : S1x4096x512.Idx → EReal := iblk m c 1 t
/-- The carried state after point `t`, and the output block's contents there. -/
abbrev shiftAt (c : Dev nD) (t : Fin cfg0.N) : S256x1.Idx → EReal := (outsAt0 m c t.val t.isLt).2.1
abbrev weightAt (c : Dev nD) (t : Fin cfg0.N) : S256x1.Idx → EReal := (outsAt0 m c t.val t.isLt).2.2.1
abbrev sumAt (c : Dev nD) (t : Fin cfg0.N) : S256x512.Idx → EReal := (outsAt0 m c t.val t.isLt).2.2.2
abbrev outAt (c : Dev nD) (t : Fin cfg0.N) : S1x256x512.Idx → EReal := (outsAt0 m c t.val t.isLt).1

/-- The point before `t` (itself at `t = 0`, where it is never consulted). -/
abbrev before (t : Fin cfg0.N) : Fin cfg0.N := ⟨t.val - 1, Nat.lt_of_le_of_lt (Nat.sub_le _ _) t.isLt⟩

/-- The printed index maps over the grid: the query block never moves; the token tile is tile `t % 8` of batch
    `t / 8`; the output block is batch `t / 8`. -/
theorem index_facts : ∀ t : Fin cfg0.N,
    win0_0.index t (0 : Fin 2) = 0 ∧ win0_0.index t (1 : Fin 2) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- The query block is the query array. -/
theorem qblk_apply (c : Dev nD) (t : Fin cfg0.N) (s : Fin 256) (k : Fin 512) :
    qblk m c t (ix2 s k) = qarr m c (ix2 s k) := by
  obtain ⟨e0, e1, -⟩ := index_facts t
  show V m c main_arg1 (((cfg0.win 0).blk t).view.emb (ix2 s k)) = V m c main_arg1 (ix2 s k)
  refine congrArg (V m c main_arg1) (funext fun a => Fin.ext ?_)
  match a with
  | ⟨0, _⟩ => show win0_0.index t (0 : Fin 2) * 256 + 1 * s.val = s.val; omega
  | ⟨1, _⟩ => show win0_0.index t (1 : Fin 2) * 512 + 1 * k.val = k.val; omega

/-- Row `j` of the token tile at point `t` is row `(t % 8) · 4096 + j` of batch `t / 8`. -/
theorem xblk_apply (c : Dev nD) (t : Fin cfg0.N) (b : Fin 8) (hb : t.val / 8 = b.val) (j : Fin 4096) (k : Fin 512)
    (n : Fin 32768) (hn : n.val = t.val % 8 * 4096 + j.val) :
    xblk m c t (ix3 0 j k) = xarr m c (ix3 b n k) := by
  obtain ⟨-, -, e0, e1, e2, -⟩ := index_facts t
  show V m c main_arg0 (((cfg0.win 1).blk t).view.emb (ix3 0 j k)) = V m c main_arg0 (ix3 b n k)
  refine congrArg (V m c main_arg0) (funext fun a => Fin.ext ?_)
  match a with
  | ⟨0, _⟩ => show win0_1.index t (0 : Fin 3) * 1 + 1 * 0 = b.val; omega
  | ⟨1, _⟩ => show win0_1.index t (1 : Fin 3) * 4096 + 1 * j.val = n.val; omega
  | ⟨2, _⟩ => show win0_1.index t (2 : Fin 3) * 512 + 1 * k.val = k.val; omega

/-- After a batch's first tile: the step functions of the reset values. -/
theorem state_first (c : Dev nD) (t : Fin cfg0.N) (h0 : t.val % 8 = 0) :
    shiftAt m c t = newShift (F := Ideal) (qblk m c t) (xblk m c t) (shift0 (F := Ideal))
    ∧ weightAt m c t = newWeight (F := Ideal) (qblk m c t) (xblk m c t) (shift0 (F := Ideal)) (weight0 (F := Ideal))
    ∧ sumAt m c t = newSum (F := Ideal) (qblk m c t) (xblk m c t) (shift0 (F := Ideal)) (sum0 (F := Ideal)) := by
  have h1 : ¬t.val % 8 = 7 := by omega
  refine ⟨?_, ?_, ?_⟩
  · show (outsAt0 m c t.val t.isLt).2.1 = _
    rw [outsAt0_A m c t h0 h1]; dsimp only
    exact left_A_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  · show (outsAt0 m c t.val t.isLt).2.2.1 = _
    rw [outsAt0_A m c t h0 h1]; dsimp only
    exact left_A_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  · show (outsAt0 m c t.val t.isLt).2.2.2 = _
    rw [outsAt0_A m c t h0 h1]; dsimp only
    exact left_A_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- After any later tile: the step functions of the state the point before left. -/
theorem state_next (c : Dev nD) (t : Fin cfg0.N) (h0 : ¬t.val % 8 = 0) :
    shiftAt m c t = newShift (F := Ideal) (qblk m c t) (xblk m c t) (shiftAt m c (before t))
    ∧ weightAt m c t = newWeight (F := Ideal) (qblk m c t) (xblk m c t) (shiftAt m c (before t)) (weightAt m c (before t))
    ∧ sumAt m c t = newSum (F := Ideal) (qblk m c t) (xblk m c t) (shiftAt m c (before t)) (sumAt m c (before t)) := by
  by_cases h1 : t.val % 8 = 7
  · refine ⟨?_, ?_, ?_⟩
    · show (outsAt0 m c t.val t.isLt).2.1 = _
      rw [outsAt0_C m c t h0 h1]; dsimp only
      exact left_C_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · show (outsAt0 m c t.val t.isLt).2.2.1 = _
      rw [outsAt0_C m c t h0 h1]; dsimp only
      exact left_C_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · show (outsAt0 m c t.val t.isLt).2.2.2 = _
      rw [outsAt0_C m c t h0 h1]; dsimp only
      exact left_C_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · refine ⟨?_, ?_, ?_⟩
    · show (outsAt0 m c t.val t.isLt).2.1 = _
      rw [outsAt0_B m c t h0 h1]; dsimp only
      exact left_B_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · show (outsAt0 m c t.val t.isLt).2.2.1 = _
      rw [outsAt0_B m c t h0 h1]; dsimp only
      exact left_B_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · show (outsAt0 m c t.val t.isLt).2.2.2 = _
      rw [outsAt0_B m c t h0 h1]; dsimp only
      exact left_B_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- At a batch's last tile the output block holds the quotient of the state just written. -/
theorem out_last (c : Dev nD) (t : Fin cfg0.N) (h1 : t.val % 8 = 7) :
    outAt m c t = quotient (F := Ideal) (sumAt m c t) (weightAt m c t) := by
  have h0 : ¬t.val % 8 = 0 := by omega
  obtain ⟨-, e2, e3⟩ := state_next m c t h0
  rw [e2, e3]
  show (outsAt0 m c t.val t.isLt).1 = _
  rw [outsAt0_C m c t h0 h1]; dsimp only
  exact left_C_out (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Gen

end
-- ==== Proof.PoolSpec.lean ====
import Idealize.ShloMosaic.PureOps.Ideal
import Idealize.ShloMosaic.Lib.ValueIdx

/-! # Attention pooling of token rows by learned queries: the value both programs compute

For a batch `b`, a query row `s` and a token row `n`, the logit is the scaled inner product
`L b s n = ∑ k, (q s k · κ) · x b n k` (κ the scale constant, a finite number). The pooled value at column `c` is the
softmax-weighted mean of the token rows,
`(∑ n, exp (L b s n) · x b n c) / (∑ n, exp (L b s n))`.
Subtracting any real number `M` from every logit changes neither numerator nor denominator's ratio, so no maximum
appears in this form. The arrays hold extended reals; the value is stated through their real parts, and it is the value
of both programs wherever every entry is a real number. -/

noncomputable section

namespace Cert.Pool

open Idealize.ShloMosaic Idealize.ShloMosaic.ValueIdx

/-- The token array: 8 batches of 32768 rows of 512 columns. -/
abbrev SX : Shape := ⟨3, ![8, 32768, 512]⟩
/-- The query array: 256 rows of 512 columns. -/
abbrev SQ : Shape := ⟨2, ![256, 512]⟩
/-- The pooled result: 8 batches of 256 rows of 512 columns. -/
abbrev SO : Shape := ⟨3, ![8, 256, 512]⟩

/-- Every entry of an array of extended reals is a real number. -/
def AllReal {S : Shape} (v : S.Idx → EReal) : Prop := ∀ i, v i = ((v i).toReal : EReal)

/-- The scale constant as a real number. -/
def scale : ℝ := (Ideal.ofBits .f32 0x3D3504F3#32).toReal

/-- A pattern whose exponent field is not all ones denotes a real number. -/
theorem ieee_real (e m : Nat) {w : Nat} (b : BitVec w)
    (h : (b.extractLsb' m e).toNat ≠ 2 ^ e - 1) : ∃ r : ℝ, Ideal.ieee e m b = (r : EReal) := by
  unfold Ideal.ieee
  simp only [if_neg h]
  split_ifs <;> exact ⟨_, rfl⟩

/-- The scale constant's pattern denotes a real number: its exponent field is 122, not 255. -/
theorem scale_coe : Ideal.ofBits .f32 0x3D3504F3#32 = (scale : EReal) := by
  obtain ⟨r, hr⟩ : ∃ r : ℝ, Ideal.ofBits .f32 0x3D3504F3#32 = (r : EReal) := by
    show ∃ r : ℝ, Ideal.ieee 8 23 (0x3D3504F3#32) = (r : EReal)
    exact ieee_real 8 23 _ (by decide)
  unfold scale
  rw [hr, EReal.toReal_coe]

/-- The pattern of minus infinity. -/
theorem ofBits_neg_inf : Ideal.ofBits .f32 0xFF800000#32 = (⊥ : EReal) := by
  simp [Ideal.ofBits, Ideal.ieee]

/-- The pattern of plus infinity. -/
theorem ofBits_pos_inf : Ideal.ofBits .f32 0x7F800000#32 = (⊤ : EReal) := by
  simp [Ideal.ofBits, Ideal.ieee]

/-- The real entry of the token array. -/
def xr (x : SX.Idx → EReal) (b : Fin 8) (n : Fin 32768) (k : Fin 512) : ℝ := (x (ix3 b n k)).toReal
/-- The real entry of the query array. -/
def qr (q : SQ.Idx → EReal) (s : Fin 256) (k : Fin 512) : ℝ := (q (ix2 s k)).toReal

/-- The logit of query row `s` against token row `n` of batch `b`. -/
def logit (x : SX.Idx → EReal) (q : SQ.Idx → EReal) (b : Fin 8) (s : Fin 256) (n : Fin 32768) : ℝ :=
  ∑ k : Fin 512, (qr q s k * scale) * xr x b n k

/-- The softmax-weighted mean of column `c` of batch `b`'s token rows under query row `s`. -/
def pooledAt (x : SX.Idx → EReal) (q : SQ.Idx → EReal) (b : Fin 8) (s : Fin 256) (c : Fin 512) : ℝ :=
  (∑ n : Fin 32768, Real.exp (logit x q b s n) * xr x b n c) / (∑ n : Fin 32768, Real.exp (logit x q b s n))

/-- The pooled array. -/
def pooled (x : SX.Idx → EReal) (q : SQ.Idx → EReal) : SO.Idx → EReal :=
  fun i => ((pooledAt x q (i 0) (i 1) (i 2) : ℝ) : EReal)

theorem pooled_ix3 (x : SX.Idx → EReal) (q : SQ.Idx → EReal) (b : Fin 8) (s : Fin 256) (c : Fin 512) :
    pooled x q (ix3 b s c) = ((pooledAt x q b s c : ℝ) : EReal) := rfl

end Cert.Pool

end
-- ==== Proof.OnlineSoftmax.lean ====
import Idealize.ShloMosaic.PureOps.Ideal

/-! # A softmax-weighted mean accumulated tile by tile under a running shift

One row of attention pooling. The logits `L n` and the values `X n c` are real. A state `(m, l, acc)` of extended
reals *represents* the partial sums `S = ∑ exp (L n)` and `A c = ∑ exp (L n) · X n c` over the rows seen so far when
`m` is a real number `μ` and `l = exp (-μ) · S`, `acc c = exp (-μ) · A c`: the common factor `exp (-μ)` is the running
shift. Taking in a tile of rows replaces `μ` by `μ' = max μ (max of the tile's logits)`, rescales the old sums by
`exp (μ - μ')` and adds the tile's terms `exp (L j - μ')`; since `exp (μ - μ') · exp (-μ) = exp (-μ')` the new state
represents the enlarged sums. The first tile starts from `m = -∞`, `l = 0`, `acc = 0`: whatever `exp (-∞ - μ')` is,
it multiplies zero. At the end `acc c / l = A c / S`, the shift cancelling because `exp (-μ) ≠ 0` and `S > 0`.
The same quotient is the sum of `(exp (L n - M) / ∑ exp (L n' - M)) · X n c` for any real `M`. -/

noncomputable section

namespace Cert.Pool

open Idealize.ShloMosaic

/-- The coercion of a finite real sum is the sum of the coercions. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The maximum of finitely many real numbers, at least one, folded from `-∞`, is a real number. -/
theorem fold_max_real {T : ℕ} (hT : 0 < T) (Lt : Fin T → ℝ) (Le : Fin T → EReal) (hL : ∀ j, Le j = (Lt j : EReal)) :
    ∃ r : ℝ, (Finset.univ : Finset (Fin T)).fold max (⊥ : EReal) Le = (r : EReal) := by
  have h1 : (Finset.univ : Finset (Fin T)).fold max (⊥ : EReal) Le < ⊤ := by
    rw [Finset.fold_max_lt]
    exact ⟨bot_lt_top, fun j _ => by rw [hL]; exact EReal.coe_lt_top _⟩
  have h2 : ⊥ < (Finset.univ : Finset (Fin T)).fold max (⊥ : EReal) Le := by
    rw [Finset.lt_fold_max]
    right
    exact ⟨⟨0, hT⟩, Finset.mem_univ _, by rw [hL]; exact EReal.bot_lt_coe _⟩
  exact ⟨_, (EReal.coe_toReal h1.ne h2.ne').symm⟩

/-- The larger of a real number and the maximum of finitely many real numbers (possibly none) folded from `-∞`
    is a real number. -/
theorem max_fold_real {T : ℕ} (μ : ℝ) (Lt : Fin T → ℝ) (Le : Fin T → EReal) (hL : ∀ j, Le j = (Lt j : EReal)) :
    ∃ r : ℝ, max (μ : EReal) ((Finset.univ : Finset (Fin T)).fold max (⊥ : EReal) Le) = (r : EReal) := by
  have h1 : max (μ : EReal) ((Finset.univ : Finset (Fin T)).fold max (⊥ : EReal) Le) < ⊤ := by
    rw [max_lt_iff, Finset.fold_max_lt]
    exact ⟨EReal.coe_lt_top _, bot_lt_top, fun j _ => by rw [hL]; exact EReal.coe_lt_top _⟩
  have h2 : ⊥ < max (μ : EReal) ((Finset.univ : Finset (Fin T)).fold max (⊥ : EReal) Le) :=
    lt_of_lt_of_le (EReal.bot_lt_coe μ) (le_max_left _ _)
  exact ⟨_, (EReal.coe_toReal h1.ne h2.ne').symm⟩

/-- Rescaling a shifted quantity from the shift `μ` to the shift `μ'`: `exp (μ - μ') · exp (-μ) = exp (-μ')`. -/
theorem rescale (μ μ' x : ℝ) :
    Ideal.exp ((μ : EReal) - (μ' : EReal)) * ((Real.exp (-μ) * x : ℝ) : EReal) = ((Real.exp (-μ') * x : ℝ) : EReal) := by
  have e : μ - μ' + -μ = -μ' := by ring
  rw [← EReal.coe_sub, Ideal.exp_coe, ← EReal.coe_mul, ← mul_assoc, ← Real.exp_add, e]

/-- The terms a tile adds to the shifted sum of exponentials: `exp (L - μ') = exp (-μ') · exp L`. -/
theorem tile_sum (μ' : ℝ) {T : ℕ} (Lt : Fin T → ℝ) :
    ∑ j, Ideal.exp ((Lt j : EReal) - (μ' : EReal)) = ((Real.exp (-μ') * ∑ j, Real.exp (Lt j) : ℝ) : EReal) := by
  simp only [← EReal.coe_sub, Ideal.exp_coe]
  rw [← coe_finset_sum, Finset.mul_sum]
  congr 1
  refine Finset.sum_congr rfl fun j _ => ?_
  rw [← Real.exp_add]
  congr 1
  ring

/-- The terms a tile adds to the shifted weighted sum. -/
theorem tile_wsum (μ' : ℝ) {T : ℕ} {C : Type} (Lt : Fin T → ℝ) (Xt : Fin T → C → ℝ) (c : C) :
    ∑ j, Ideal.exp ((Lt j : EReal) - (μ' : EReal)) * (Xt j c : EReal)
      = ((Real.exp (-μ') * ∑ j, Real.exp (Lt j) * Xt j c : ℝ) : EReal) := by
  simp only [← EReal.coe_sub, Ideal.exp_coe, ← EReal.coe_mul]
  rw [← coe_finset_sum, Finset.mul_sum]
  congr 1
  refine Finset.sum_congr rfl fun j _ => ?_
  rw [← mul_assoc, ← Real.exp_add]
  congr 2
  ring

/-- The state `(m, l, acc)` represents the partial sums `S` and `A`. -/
def RowInv {C : Type} (S : ℝ) (A : C → ℝ) (m l : EReal) (acc : C → EReal) : Prop :=
  ∃ μ : ℝ, m = (μ : EReal) ∧ l = ((Real.exp (-μ) * S : ℝ) : EReal) ∧ ∀ c, acc c = ((Real.exp (-μ) * A c : ℝ) : EReal)

/-- Taking in a tile: the updated state represents the sums enlarged by the tile's terms. -/
theorem RowInv.step {T : ℕ} {C : Type} {S : ℝ} {A : C → ℝ} {m l : EReal} {acc : C → EReal}
    (h : RowInv S A m l acc) (Lt : Fin T → ℝ) (Xt : Fin T → C → ℝ)
    (Le : Fin T → EReal) (hL : ∀ j, Le j = (Lt j : EReal))
    (Xe : Fin T → C → EReal) (hX : ∀ j c, Xe j c = (Xt j c : EReal)) :
    RowInv (S + ∑ j, Real.exp (Lt j)) (fun c => A c + ∑ j, Real.exp (Lt j) * Xt j c)
      (max m ((Finset.univ : Finset (Fin T)).fold max (⊥ : EReal) Le))
      (Ideal.exp (m - max m ((Finset.univ : Finset (Fin T)).fold max (⊥ : EReal) Le)) * l
        + ∑ j, Ideal.exp (Le j - max m ((Finset.univ : Finset (Fin T)).fold max (⊥ : EReal) Le)))
      (fun c => Ideal.exp (m - max m ((Finset.univ : Finset (Fin T)).fold max (⊥ : EReal) Le)) * acc c
        + ∑ j, Ideal.exp (Le j - max m ((Finset.univ : Finset (Fin T)).fold max (⊥ : EReal) Le)) * Xe j c) := by
  obtain ⟨μ, rfl, rfl, hacc⟩ := h
  obtain ⟨μ', hμ'⟩ := max_fold_real μ Lt Le hL
  refine ⟨μ', hμ', ?_, fun c => ?_⟩
  · rw [hμ']
    simp only [hL]
    rw [rescale, tile_sum, ← EReal.coe_add, mul_add]
  · show Ideal.exp (_ - _) * acc c + _ = _
    rw [hμ', hacc c]
    simp only [hL, hX]
    rw [rescale, tile_wsum, ← EReal.coe_add, mul_add]

/-- The first tile, from the reset state `m = -∞`, `l = 0`, `acc = 0`. -/
theorem RowInv.first {T : ℕ} (hT : 0 < T) {C : Type} (Lt : Fin T → ℝ) (Xt : Fin T → C → ℝ)
    (Le : Fin T → EReal) (hL : ∀ j, Le j = (Lt j : EReal))
    (Xe : Fin T → C → EReal) (hX : ∀ j c, Xe j c = (Xt j c : EReal)) :
    RowInv (∑ j, Real.exp (Lt j)) (fun c => ∑ j, Real.exp (Lt j) * Xt j c)
      (max (⊥ : EReal) ((Finset.univ : Finset (Fin T)).fold max (⊥ : EReal) Le))
      (Ideal.exp ((⊥ : EReal) - max (⊥ : EReal) ((Finset.univ : Finset (Fin T)).fold max (⊥ : EReal) Le)) * 0
        + ∑ j, Ideal.exp (Le j - max (⊥ : EReal) ((Finset.univ : Finset (Fin T)).fold max (⊥ : EReal) Le)))
      (fun c => Ideal.exp ((⊥ : EReal) - max (⊥ : EReal) ((Finset.univ : Finset (Fin T)).fold max (⊥ : EReal) Le)) * 0
        + ∑ j, Ideal.exp (Le j - max (⊥ : EReal) ((Finset.univ : Finset (Fin T)).fold max (⊥ : EReal) Le)) * Xe j c) := by
  obtain ⟨r, hr⟩ := fold_max_real hT Lt Le hL
  have hm : max (⊥ : EReal) ((Finset.univ : Finset (Fin T)).fold max (⊥ : EReal) Le) = (r : EReal) := by
    rw [hr]; exact max_eq_right bot_le
  refine ⟨r, hm, ?_, fun c => ?_⟩
  · rw [hm, mul_zero, zero_add]
    simp only [hL]
    rw [tile_sum]
  · show Ideal.exp (_ - _) * 0 + _ = _
    rw [hm, mul_zero, zero_add]
    simp only [hL, hX]
    rw [tile_wsum]

/-- At the end the quotient of the state is the quotient of the sums: the shift cancels. -/
theorem RowInv.quot {C : Type} {S : ℝ} {A : C → ℝ} {m l : EReal} {acc : C → EReal}
    (h : RowInv S A m l acc) (hS : 0 < S) (c : C) :
    Ideal.div (acc c) l = ((A c / S : ℝ) : EReal) := by
  obtain ⟨μ, rfl, rfl, hacc⟩ := h
  have he : Real.exp (-μ) ≠ 0 := (Real.exp_pos _).ne'
  have hS' : S ≠ 0 := hS.ne'
  have hne : Real.exp (-μ) * S ≠ 0 := mul_ne_zero he hS'
  rw [hacc c, Ideal.div_coe hne, ← EReal.coe_mul]
  congr 1
  field_simp

/-- A sum of exponentials over a nonempty range is positive. -/
theorem sum_exp_pos {N : ℕ} (hN : 0 < N) (L : Fin N → ℝ) : 0 < ∑ n, Real.exp (L n) := by
  haveI : Nonempty (Fin N) := ⟨⟨0, hN⟩⟩
  exact Finset.sum_pos (fun n _ => Real.exp_pos _) Finset.univ_nonempty

/-- The softmax weights, computed with any real shift `M` and normalised by their sum (itself added to a zero),
    applied to the values: the same quotient of sums. -/
theorem softmax_mean {N : ℕ} (hN : 0 < N) (L X : Fin N → ℝ) (M : ℝ)
    (Le : Fin N → EReal) (hL : ∀ n, Le n = (L n : EReal)) (Xe : Fin N → EReal) (hX : ∀ n, Xe n = (X n : EReal))
    (Me : EReal) (hM : Me = (M : EReal)) (z : EReal) (hz : z = 0) :
    ∑ n, Ideal.div (Ideal.exp (Le n - Me)) (z + ∑ n', Ideal.exp (Le n' - Me)) * Xe n
      = (((∑ n, Real.exp (L n) * X n) / (∑ n, Real.exp (L n)) : ℝ) : EReal) := by
  subst hM hz
  have hpos : (∑ n, Real.exp (L n)) ≠ 0 := (sum_exp_pos hN L).ne'
  have he : Real.exp (-M) ≠ 0 := (Real.exp_pos _).ne'
  have hne : Real.exp (-M) * ∑ n, Real.exp (L n) ≠ 0 := mul_ne_zero he hpos
  simp only [hL, hX, zero_add]
  rw [tile_sum]
  simp only [Ideal.div_coe hne, ← EReal.coe_sub, Ideal.exp_coe, ← EReal.coe_mul]
  rw [← coe_finset_sum]
  congr 1
  rw [Finset.sum_div]
  refine Finset.sum_congr rfl fun n _ => ?_
  rw [sub_eq_add_neg, Real.exp_add]
  field_simp

end Cert.Pool

end
-- ==== Proof.StepAt.lean ====
import proofs.«132561_j30648886624911_2_alg».proof.Proof.Step
import proofs.«132561_j30648886624911_2_alg».proof.Proof.PoolSpec
import proofs.«132561_j30648886624911_2_alg».proof.Proof.OnlineSoftmax
import Idealize.ShloMosaic.Lib.ValueIdx
import Idealize.ShloMosaic.Lib.ValueLayout
import Idealize.ShloMosaic.Lib.Pipeline.Value
import Idealize.ShloMosaic.PureOps.Ideal.Laws

/-! # One grid point's step functions read at an index, on the extended reals

Row `s` of the tile's logits is `tileLogit q xt s j = ∑ k, (q s k · κ) · xt j k` over the tile's 4096 rows `j`. At row `s`:
the new shift is the old shift against the largest of these; with `a = exp (old shift − new shift)` and
`p j = exp (tileLogit j − new shift)`, the new sum of weights is `a · old + ∑ j, p j` and the new weighted sum at
column `c` is `a · old + ∑ j, p j · xt j c`; the quotient block at `(s, c)` is the weighted sum over the sum of weights.
The reset values are `-∞`, `0`, `0`. -/

noncomputable section

namespace Cert.KernelIdeal.Step

open Cert.KernelIdeal Cert.KernelIdeal.Gen Idealize.ShloMosaic Idealize.ShloMosaic.ValueIdx

/-! ## Two column layouts read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `s`, tile row `j` of the scaled query-token products. -/
def tileLogit (q : S256x512.Idx → EReal) (xt : S1x4096x512.Idx → EReal) (s : Fin 256) (j : Fin 4096) : EReal :=
  ∑ k : Fin 512, (q (ix2 s k) * Ideal.ofBits .f32 0x3D3504F3#32) * xt (ix3 0 j k)

/-- Where the query block and the tile hold real numbers the logit is the real sum. -/
theorem tileLogit_coe (q : S256x512.Idx → EReal) (xt : S1x4096x512.Idx → EReal)
    (hq : Cert.Pool.AllReal q) (hxt : Cert.Pool.AllReal xt) (s : Fin 256) (j : Fin 4096) :
    tileLogit q xt s j
      = ((∑ k : Fin 512, ((q (ix2 s k)).toReal * Cert.Pool.scale) * (xt (ix3 0 j k)).toReal : ℝ) : EReal) := by
  unfold tileLogit
  rw [Cert.Pool.coe_finset_sum]
  refine Finset.sum_congr rfl fun k _ => ?_
  calc (q (ix2 s k) * Ideal.ofBits .f32 0x3D3504F3#32) * xt (ix3 0 j k)
      = (((q (ix2 s k)).toReal : EReal) * (Cert.Pool.scale : EReal)) * ((xt (ix3 0 j k)).toReal : EReal) := by
        rw [← hq (ix2 s k), ← hxt (ix3 0 j k), Cert.Pool.scale_coe]
    _ = _ := by rw [← EReal.coe_mul, ← EReal.coe_mul]

theorem quotient_apply (acc : S256x512.Idx → EReal) (l : S256x1.Idx → EReal) (s : Fin 256) (c : Fin 512) :
    quotient (F := Ideal) acc l (ix3 0 s c) = Ideal.div (acc (ix2 s c)) (l (ix2 s 0)) := by
  unfold quotient k0_pay3
  refine (shapeCast_ab_1ab_apply _ _ 0 s c).trans ?_
  refine (divf_apply _ _ _).trans ?_
  exact congrArg (Ideal.div (acc (ix2 s c))) (broadcastTo_a1_ab_apply l _ s c)

theorem shift0_apply (i : S256x1.Idx) : shift0 (F := Ideal) i = (⊥ : EReal) := by
  show k0_pay4 (F := Ideal) i = _
  unfold k0_pay4
  refine (congrFun (shapeCast_self _ _) i).trans ?_
  exact Cert.Pool.ofBits_neg_inf

theorem weight0_apply (i : S256x1.Idx) : weight0 (F := Ideal) i = (0 : EReal) := by
  show k0_pay5 (F := Ideal) i = _
  unfold k0_pay5
  refine (congrFun (shapeCast_self _ _) i).trans ?_
  exact Ideal.ofBits_zero_f32

theorem sum0_apply (i : S256x512.Idx) : sum0 (F := Ideal) i = (0 : EReal) := by
  show k0_pay6 (F := Ideal) i = _
  unfold k0_pay6
  refine (congrFun (shapeCast_self _ _) i).trans ?_
  exact Ideal.ofBits_zero_f32

/-! ## The kernel's two products read at an index -/

theorem lhs_logits_0 (i : S256x4096.Idx) (q : dot_S256x512_S4096x512_S256x4096_1_1_0_0_n_n.contr.Idx) :
    (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem lhs_logits_1 (i : S256x4096.Idx) (q : dot_S256x512_S4096x512_S256x4096_1_1_0_0_n_n.contr.Idx) :
    (dot_S256x512_S4096x512_S256x4096_1_1_0_0_n_n.lhsIdx i q 1).val = (q ⟨0, by decide⟩).val :=
  dot_S256x512_S4096x512_S256x4096_1_1_0_0_n_n.lhsIdx_val_of_single rfl i q
theorem rhs_logits_0 (i : S256x4096.Idx) (q : dot_S256x512_S4096x512_S256x4096_1_1_0_0_n_n.contr.Idx) :
    (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem rhs_logits_1 (i : S256x4096.Idx) (q : dot_S256x512_S4096x512_S256x4096_1_1_0_0_n_n.contr.Idx) :
    (dot_S256x512_S4096x512_S256x4096_1_1_0_0_n_n.rhsIdx i q 1).val = (q ⟨0, by decide⟩).val :=
  dot_S256x512_S4096x512_S256x4096_1_1_0_0_n_n.rhsIdx_val_of_single rfl i q

/-- The tile's rows as a matrix: the leading unit axis dropped. -/
theorem pay7_apply (xt : S1x4096x512.Idx → EReal) (j : Fin 4096) (k : Fin 512) :
    k0_pay7 (F := Ideal) xt (ix2 j k) = xt (ix3 0 j k) := by
  unfold k0_pay7
  show shapeCast S4096x512 xt shapeCasts_S1x4096x512_S4096x512 (ix2 j k) = _
  exact shapeCast_1ab_ab_apply xt _ j k

/-- The first product at `(s, j)` is the logit of query row `s` against tile row `j`. -/
theorem pay8_apply (q : S256x512.Idx → EReal) (xt : S1x4096x512.Idx → EReal) (s : Fin 256) (j : Fin 4096) :
    k0_pay8 (F := Ideal) q xt (ix2 s j) = tileLogit q xt s j := by
  unfold k0_pay8 tileLogit
  refine (Ideal.matmul_constant_zero_apply dot_S256x512_S4096x512_S256x4096_1_1_0_0_n_n none _ _ (ix2 s j)).trans ?_
  rw [← Equiv.sum_comp (ValueIdx.contrEquiv1 dot_S256x512_S4096x512_S256x4096_1_1_0_0_n_n 512 rfl rfl).symm]
  refine Finset.sum_congr rfl fun k _ => ?_
  have hk := ValueIdx.contrEquiv1_symm_val dot_S256x512_S4096x512_S256x4096_1_1_0_0_n_n 512 rfl rfl k
  have el : dot_S256x512_S4096x512_S256x4096_1_1_0_0_n_n.lhsIdx (ix2 s j) ((ValueIdx.contrEquiv1 dot_S256x512_S4096x512_S256x4096_1_1_0_0_n_n 512 rfl rfl).symm k) = ix2 s k := funext fun a => Fin.ext (by
    match a with
    | ⟨0, _⟩ => exact lhs_logits_0 _ _
    | ⟨1, _⟩ => exact (lhs_logits_1 _ _).trans hk)
  have er : dot_S256x512_S4096x512_S256x4096_1_1_0_0_n_n.rhsIdx (ix2 s j) ((ValueIdx.contrEquiv1 dot_S256x512_S4096x512_S256x4096_1_1_0_0_n_n 512 rfl rfl).symm k) = ix2 j k := funext fun a => Fin.ext (by
    match a with
    | ⟨0, _⟩ => exact rhs_logits_0 _ _
    | ⟨1, _⟩ => exact (rhs_logits_1 _ _).trans hk)
  rw [el, er, pay7_apply]
  rfl

theorem lhs_rows_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem lhs_rows_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
theorem rhs_rows_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
theorem rhs_rows_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-! ## The row reductions -/

/-- A row index with the tile-row coordinate put back is the pair. -/
theorem lift_ix1 (h : S256x4096.Reduces [1] S256) (s : Fin 256) (j : Fin 4096) :
    h.lift (ix1 s) j = ix2 s j :=
  funext fun a => Fin.ext (by match a with | ⟨0, _⟩ => rfl | ⟨1, _⟩ => rfl)

/-- The new shift before it is stored: the old shift against the largest logit of the row. -/
theorem pay9_apply (q : S256x512.Idx → EReal) (xt : S1x4096x512.Idx → EReal) (ms : S256x1.Idx → EReal) (s : Fin 256) :
    k0_pay9 (F := Ideal) q xt ms (ix2 s 0)
      = max (ms (ix2 s 0)) ((Finset.univ : Finset (Fin 4096)).fold max (⊥ : EReal) (fun j => tileLogit q xt s j)) := by
  unfold k0_pay9
  refine congrArg (max (ms (ix2 s 0))) ?_
  refine (shapeCast_a_a1_apply _ _ s 0).trans ?_
  refine (Ideal.multiReduction_maximumf_single (k0_pay8 (F := Ideal) q xt) 0xFF800000#32 reduces_S256x4096_S256 (.inl rfl) rfl (ix1 s)).trans ?_
  show (Finset.univ : Finset (Fin 4096)).fold max (Ideal.ofBits .f32 0xFF800000#32)
      (fun j => k0_pay8 (F := Ideal) q xt ((reduces_S256x4096_S256 : S256x4096.Reduces [1] S256).lift (ix1 s) j)) = _
  rw [Cert.Pool.ofBits_neg_inf]
  refine congrArg (fun f => Finset.fold max (⊥ : EReal) f (Finset.univ : Finset (Fin 4096))) (funext fun (j : Fin 4096) => ?_)
  exact (congrArg (k0_pay8 (F := Ideal) q xt) (lift_ix1 _ s j)).trans (pay8_apply q xt s j)

/-- Storing the new shift keeps it. -/
theorem newShift_eq (q : S256x512.Idx → EReal) (xt : S1x4096x512.Idx → EReal) (ms : S256x1.Idx → EReal) :
    newShift (F := Ideal) q xt ms = k0_pay9 (F := Ideal) q xt ms := by
  unfold newShift k0_pay2
  exact shapeCast_self _ _

theorem newShift_apply (q : S256x512.Idx → EReal) (xt : S1x4096x512.Idx → EReal) (ms : S256x1.Idx → EReal) (s : Fin 256) :
    newShift (F := Ideal) q xt ms (ix2 s 0)
      = max (ms (ix2 s 0)) ((Finset.univ : Finset (Fin 4096)).fold max (⊥ : EReal) (fun j => tileLogit q xt s j)) := by
  rw [newShift_eq]
  exact pay9_apply q xt ms s

/-- The factor that rescales the old sums to the new shift. -/
theorem pay10_apply (q : S256x512.Idx → EReal) (xt : S1x4096x512.Idx → EReal) (ms m : S256x1.Idx → EReal) (i : S256x1.Idx) :
    k0_pay10 (F := Ideal) q xt ms m i = Ideal.exp (m i - k0_pay9 (F := Ideal) q xt ms i) := rfl

/-- The weight of tile row `j` in row `s`. -/
theorem pay11_apply (q : S256x512.Idx → EReal) (xt : S1x4096x512.Idx → EReal) (ms : S256x1.Idx → EReal) (s : Fin 256) (j : Fin 4096) :
    k0_pay11 (F := Ideal) q xt ms (ix2 s j) = Ideal.exp (tileLogit q xt s j - k0_pay9 (F := Ideal) q xt ms (ix2 s 0)) := by
  unfold k0_pay11
  show Ideal.exp (k0_pay8 (F := Ideal) q xt (ix2 s j) - broadcastTo S256x4096 (k0_pay9 (F := Ideal) q xt ms) broadcasts_S256x1_S256x4096 (ix2 s j)) = _
  rw [pay8_apply, broadcastTo_a1_ab_apply]

theorem newWeight_apply (q : S256x512.Idx → EReal) (xt : S1x4096x512.Idx → EReal) (ms ls : S256x1.Idx → EReal) (s : Fin 256) :
    newWeight (F := Ideal) q xt ms ls (ix2 s 0)
      = Ideal.exp (ms (ix2 s 0) - newShift (F := Ideal) q xt ms (ix2 s 0)) * ls (ix2 s 0)
        + ∑ j : Fin 4096, Ideal.exp (tileLogit q xt s j - newShift (F := Ideal) q xt ms (ix2 s 0)) := by
  rw [newShift_eq]
  unfold newWeight k0_pay12
  refine (congrFun (shapeCast_self _ _) (ix2 s 0)).trans ?_
  refine congrArg (k0_pay10 (F := Ideal) q xt ms ms (ix2 s 0) * ls (ix2 s 0) + ·) ?_
  refine (shapeCast_a_a1_apply _ _ s 0).trans ?_
  refine (Ideal.multiReduction_add_single (k0_pay11 (F := Ideal) q xt ms) 0x00000000#32 reduces_S256x4096_S256 (.inl rfl) rfl (ix1 s)).trans ?_
  show ∑ j : Fin 4096, k0_pay11 (F := Ideal) q xt ms ((reduces_S256x4096_S256 : S256x4096.Reduces [1] S256).lift (ix1 s) j) = _
  refine Finset.sum_congr rfl fun (j : Fin 4096) _ => ?_
  exact (congrArg (k0_pay11 (F := Ideal) q xt ms) (lift_ix1 _ s j)).trans (pay11_apply q xt ms s j)

/-- The second product at `(s, c)`: the tile's rows under their weights. -/
theorem pay13_apply (q : S256x512.Idx → EReal) (xt : S1x4096x512.Idx → EReal) (ms : S256x1.Idx → EReal) (s : Fin 256) (c : Fin 512) :
    k0_pay13 (F := Ideal) q xt ms (ix2 s c) = ∑ j : Fin 4096, k0_pay11 (F := Ideal) q xt ms (ix2 s j) * xt (ix3 0 j c) := by
  unfold k0_pay13
  refine (Ideal.matmul_constant_zero_apply dot_S256x4096_S4096x512_S256x512_1_0_0_1_n_n none _ _ (ix2 s c)).trans ?_
  rw [← Equiv.sum_comp (ValueIdx.contrEquiv1 dot_S256x4096_S4096x512_S256x512_1_0_0_1_n_n 4096 rfl rfl).symm]
  refine Finset.sum_congr rfl fun k _ => ?_
  have hk := ValueIdx.contrEquiv1_symm_val dot_S256x4096_S4096x512_S256x512_1_0_0_1_n_n 4096 rfl rfl k
  have el : dot_S256x4096_S4096x512_S256x512_1_0_0_1_n_n.lhsIdx (ix2 s c) ((ValueIdx.contrEquiv1 dot_S256x4096_S4096x512_S256x512_1_0_0_1_n_n 4096 rfl rfl).symm k) = ix2 s k := funext fun a => Fin.ext (by
    match a with
    | ⟨0, _⟩ => exact lhs_rows_0 _ _
    | ⟨1, _⟩ => exact (lhs_rows_1 _ _).trans hk)
  have er : dot_S256x4096_S4096x512_S256x512_1_0_0_1_n_n.rhsIdx (ix2 s c) ((ValueIdx.contrEquiv1 dot_S256x4096_S4096x512_S256x512_1_0_0_1_n_n 4096 rfl rfl).symm k) = ix2 k c := funext fun a => Fin.ext (by
    match a with
    | ⟨0, _⟩ => exact (rhs_rows_0 _ _).trans hk
    | ⟨1, _⟩ => exact rhs_rows_1 _ _)
  rw [el, er, pay7_apply]
  rfl

theorem newSum_apply (q : S256x512.Idx → EReal) (xt : S1x4096x512.Idx → EReal) (ms : S256x1.Idx → EReal)
    (accs : S256x512.Idx → EReal) (s : Fin 256) (c : Fin 512) :
    newSum (F := Ideal) q xt ms accs (ix2 s c)
      = Ideal.exp (ms (ix2 s 0) - newShift (F := Ideal) q xt ms (ix2 s 0)) * accs (ix2 s c)
        + ∑ j : Fin 4096, Ideal.exp (tileLogit q xt s j - newShift (F := Ideal) q xt ms (ix2 s 0)) * xt (ix3 0 j c) := by
  rw [newShift_eq]
  unfold newSum k0_pay1
  refine (congrFun (shapeCast_self _ _) (ix2 s c)).trans ?_
  show k0_pay14 (F := Ideal) q xt ms ms accs (ix2 s c) + k0_pay13 (F := Ideal) q xt ms (ix2 s c) = _
  rw [pay13_apply]
  unfold k0_pay14
  show broadcastTo S256x512 (k0_pay10 (F := Ideal) q xt ms ms) broadcasts_S256x1_S256x512 (ix2 s c) * accs (ix2 s c) + _ = _
  rw [broadcastTo_a1_ab_apply]
  refine congrArg (k0_pay10 (F := Ideal) q xt ms ms (ix2 s 0) * accs (ix2 s c) + ·) ?_
  refine Finset.sum_congr rfl fun j _ => ?_
  rw [pay11_apply]

end Cert.KernelIdeal.Step

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.Invariant.lean ====
import proofs.«132561_j30648886624911_2_alg».proof.Proof.Blocks
import proofs.«132561_j30648886624911_2_alg».proof.Proof.StepAt
import proofs.«132561_j30648886624911_2_alg».proof.Proof.LibBlockSum

/-! # After every grid point the carried state represents the sums over the rows seen so far

Fix a batch `b` and a query row `s`. Tile `u` of the batch contributes `W u = ∑ j, exp (L (u · 4096 + j))` to the sum of
weights and `WX u c = ∑ j, exp (L (u · 4096 + j)) · x (u · 4096 + j) c` to the weighted sum of rows, `L` the row's logits.
After tile `u` of the batch the carried state represents `∑ u' ≤ u, W u'` and `∑ u' ≤ u, WX u' c`: at the first tile by
the reset step, at each later tile by the rescaling step applied to what the point before left. The eight tiles of
4096 rows are the batch's 32768 rows, so after the last tile the state represents the full sums and the output block
holds their quotient, the pooled value. Everything is under the hypothesis that the two argument arrays hold real
numbers. -/

set_option maxRecDepth 16384

noncomputable section

namespace Cert.Pool

open Idealize.ShloMosaic Idealize.ShloMosaic.ValueIdx

/-- A represented state, transported along equalities of its five components. -/
theorem RowInv.of_eq {C : Type} {S S' : ℝ} {A A' : C → ℝ} {m m' l l' : EReal} {acc acc' : C → EReal}
    (h : RowInv S A m l acc) (hm : m' = m) (hl : l' = l) (hacc : ∀ c, acc' c = acc c) (hS : S' = S)
    (hA : ∀ c, A' c = A c) : RowInv S' A' m' l' acc' := by
  obtain ⟨μ, e1, e2, e3⟩ := h
  exact ⟨μ, hm.trans e1, hl.trans (by rw [e2, hS]), fun c => (hacc c).trans (by rw [e3 c, hA c])⟩

/-- The logit and the token entry at a row given as a natural number (zero past the last row). -/
def logitN (x : SX.Idx → EReal) (q : SQ.Idx → EReal) (b : Fin 8) (s : Fin 256) (n : ℕ) : ℝ :=
  if h : n < 32768 then logit x q b s ⟨n, h⟩ else 0
def xrN (x : SX.Idx → EReal) (b : Fin 8) (n : ℕ) (c : Fin 512) : ℝ :=
  if h : n < 32768 then xr x b ⟨n, h⟩ c else 0

/-- Tile `u`'s contribution to the sum of weights, and to the weighted sum of rows at column `c`. -/
def tileW (x : SX.Idx → EReal) (q : SQ.Idx → EReal) (b : Fin 8) (s : Fin 256) (u : ℕ) : ℝ :=
  ∑ j : Fin 4096, Real.exp (logitN x q b s (u * 4096 + j.val))
def tileWX (x : SX.Idx → EReal) (q : SQ.Idx → EReal) (b : Fin 8) (s : Fin 256) (u : ℕ) (c : Fin 512) : ℝ :=
  ∑ j : Fin 4096, Real.exp (logitN x q b s (u * 4096 + j.val)) * xrN x b (u * 4096 + j.val) c

/-- The eight tiles' weights are the weights of all 32768 rows. -/
theorem sum_tileW (x : SX.Idx → EReal) (q : SQ.Idx → EReal) (b : Fin 8) (s : Fin 256) :
    ∑ u ∈ Finset.range 8, tileW x q b s u = ∑ n : Fin 32768, Real.exp (logit x q b s n) := by
  rw [Finset.sum_range]
  unfold tileW
  rw [Cert.Hand.BlockSum.sum_blocks_nat_cast 8 4096 32768 rfl (fun n => Real.exp (logitN x q b s n))]
  refine Finset.sum_congr rfl fun n _ => ?_
  unfold logitN
  rw [dif_pos n.isLt]

/-- The eight tiles' weighted rows are the weighted rows of all 32768 rows. -/
theorem sum_tileWX (x : SX.Idx → EReal) (q : SQ.Idx → EReal) (b : Fin 8) (s : Fin 256) (c : Fin 512) :
    ∑ u ∈ Finset.range 8, tileWX x q b s u c = ∑ n : Fin 32768, Real.exp (logit x q b s n) * xr x b n c := by
  rw [Finset.sum_range]
  unfold tileWX
  rw [Cert.Hand.BlockSum.sum_blocks_nat_cast 8 4096 32768 rfl (fun n => Real.exp (logitN x q b s n) * xrN x b n c)]
  refine Finset.sum_congr rfl fun n _ => ?_
  unfold logitN xrN
  rw [dif_pos n.isLt, dif_pos n.isLt]

end Cert.Pool

namespace Cert.KernelIdeal.Gen

open Idealize.ShloMosaic Idealize.ShloMosaic.TcCoe Idealize.SL.Sem Idealize.ShloMosaic.ValueIdx
open Cert.KernelIdeal.Step Cert.Pool

variable (m : (ℓ : Loc nD τ sig) → Buf (Elt Ideal) ℓ)

/-- The query block holds real numbers where the query array does. -/
theorem qblk_real (c : Dev nD) (hq : AllReal (S := SQ) (qarr m c)) (t : Fin cfg0.N) : AllReal (S := SQ) (qblk m c t) := by
  intro i
  obtain ⟨p, r, rfl⟩ : ∃ (p : Fin 256) (r : Fin 512), i = ix2 p r := ⟨i 0, i 1, eq_ix2 i⟩
  rw [qblk_apply]
  exact hq _

/-- The token tile holds real numbers where the token array does. -/
theorem xblk_real (c : Dev nD) (hx : AllReal (S := SX) (xarr m c)) (t : Fin cfg0.N) :
    AllReal (S := ⟨3, ![1, 4096, 512]⟩) (xblk m c t) := by
  intro i
  obtain ⟨z, j, k, rfl⟩ : ∃ (z : Fin 1) (j : Fin 4096) (k : Fin 512), i = ix3 z j k := ⟨i 0, i 1, i 2, eq_ix3 i⟩
  obtain rfl : z = 0 := Subsingleton.elim _ _
  have hb : t.val / 8 < 8 := by have := t.isLt; have hN : cfg0.N = 64 := N_0; omega
  have hlt : t.val % 8 * 4096 + j.val < 32768 := by have := j.isLt; omega
  rw [xblk_apply m c t ⟨t.val / 8, hb⟩ rfl j k ⟨_, hlt⟩ rfl]
  exact hx _

/-- At point `t` of batch `b`: the tile's logits of row `s` and the tile's rows are the real numbers of rows
    `(t % 8) · 4096 + j` of the batch. -/
theorem tile_data (c : Dev nD) (hx : AllReal (S := SX) (xarr m c)) (hq : AllReal (S := SQ) (qarr m c))
    (t : Fin cfg0.N) (b : Fin 8) (hb : t.val / 8 = b.val) (s : Fin 256) :
    (∀ j : Fin 4096, tileLogit (qblk m c t) (xblk m c t) s j
        = ((logitN (xarr m c) (qarr m c) b s (t.val % 8 * 4096 + j.val) : ℝ) : EReal))
    ∧ (∀ (j : Fin 4096) (c' : Fin 512), xblk m c t (ix3 0 j c')
        = ((xrN (xarr m c) b (t.val % 8 * 4096 + j.val) c' : ℝ) : EReal)) := by
  refine ⟨fun j => ?_, fun j c' => ?_⟩
  · have hlt : t.val % 8 * 4096 + j.val < 32768 := by have := j.isLt; omega
    rw [tileLogit_coe _ _ (qblk_real m c hq t) (xblk_real m c hx t) s j]
    refine congrArg _ ?_
    unfold logitN
    rw [dif_pos hlt]
    unfold logit
    refine Finset.sum_congr rfl fun k _ => ?_
    rw [qblk_apply, xblk_apply m c t b hb j k ⟨_, hlt⟩ rfl]
    rfl
  · have hlt : t.val % 8 * 4096 + j.val < 32768 := by have := j.isLt; omega
    rw [xblk_apply m c t b hb j c' ⟨_, hlt⟩ rfl]
    unfold xrN
    rw [dif_pos hlt]
    exact hx _

/-- After a batch's first tile the state represents that tile's sums. -/
theorem inv_first (c : Dev nD) (hx : AllReal (S := SX) (xarr m c)) (hq : AllReal (S := SQ) (qarr m c))
    (t : Fin cfg0.N) (h0 : t.val % 8 = 0) (b : Fin 8) (hb : t.val / 8 = b.val) (s : Fin 256) :
    RowInv (∑ u' ∈ Finset.range (0 + 1), tileW (xarr m c) (qarr m c) b s u')
      (fun c' => ∑ u' ∈ Finset.range (0 + 1), tileWX (xarr m c) (qarr m c) b s u' c')
      (shiftAt m c t (ix2 s 0)) (weightAt m c t (ix2 s 0)) (fun c' => sumAt m c t (ix2 s c')) := by
  obtain ⟨e1, e2, e3⟩ := state_first m c t h0
  obtain ⟨hL, hX⟩ := tile_data m c hx hq t b hb s
  refine (RowInv.first (by decide : 0 < 4096)
      (fun j => logitN (xarr m c) (qarr m c) b s (t.val % 8 * 4096 + j.val))
      (fun j c' => xrN (xarr m c) b (t.val % 8 * 4096 + j.val) c')
      (fun j => tileLogit (qblk m c t) (xblk m c t) s j) hL
      (fun j c' => xblk m c t (ix3 0 j c')) hX).of_eq ?_ ?_ ?_ ?_ ?_
  · rw [e1, newShift_apply, shift0_apply]
  · rw [e2, newWeight_apply, newShift_apply, shift0_apply, weight0_apply]
  · intro c'
    rw [e3, newSum_apply, newShift_apply, shift0_apply, sum0_apply]
  · rw [Finset.sum_range_one, h0]
    rfl
  · intro c'
    rw [Finset.sum_range_one, h0]
    rfl

/-- After a later tile `u` the state represents the sums through tile `u`, if the point before left a state
    representing the sums through tile `u − 1`. -/
theorem inv_step (c : Dev nD) (hx : AllReal (S := SX) (xarr m c)) (hq : AllReal (S := SQ) (qarr m c))
    (t : Fin cfg0.N) (h0 : ¬t.val % 8 = 0) (b : Fin 8) (hb : t.val / 8 = b.val) (u : ℕ) (hu : t.val % 8 = u) (s : Fin 256)
    (ih : RowInv (∑ u' ∈ Finset.range u, tileW (xarr m c) (qarr m c) b s u')
      (fun c' => ∑ u' ∈ Finset.range u, tileWX (xarr m c) (qarr m c) b s u' c')
      (shiftAt m c (before t) (ix2 s 0)) (weightAt m c (before t) (ix2 s 0)) (fun c' => sumAt m c (before t) (ix2 s c'))) :
    RowInv (∑ u' ∈ Finset.range (u + 1), tileW (xarr m c) (qarr m c) b s u')
      (fun c' => ∑ u' ∈ Finset.range (u + 1), tileWX (xarr m c) (qarr m c) b s u' c')
      (shiftAt m c t (ix2 s 0)) (weightAt m c t (ix2 s 0)) (fun c' => sumAt m c t (ix2 s c')) := by
  obtain ⟨e1, e2, e3⟩ := state_next m c t h0
  obtain ⟨hL, hX⟩ := tile_data m c hx hq t b hb s
  refine (RowInv.step ih
      (fun j => logitN (xarr m c) (qarr m c) b s (t.val % 8 * 4096 + j.val))
      (fun j c' => xrN (xarr m c) b (t.val % 8 * 4096 + j.val) c')
      (fun j => tileLogit (qblk m c t) (xblk m c t) s j) hL
      (fun j c' => xblk m c t (ix3 0 j c')) hX).of_eq ?_ ?_ ?_ ?_ ?_
  · rw [e1, newShift_apply]
  · rw [e2, newWeight_apply, newShift_apply]
  · intro c'
    rw [e3, newSum_apply, newShift_apply]
  · rw [Finset.sum_range_succ, hu]
    rfl
  · intro c'
    rw [Finset.sum_range_succ, hu]
    rfl

/-- After point `n`, tile `u` of batch `b`: the state represents the sums through tile `u`. -/
theorem state_inv (c : Dev nD) (hx : AllReal (S := SX) (xarr m c)) (hq : AllReal (S := SQ) (qarr m c)) :
    ∀ (n : ℕ) (hn : n < cfg0.N) (b : Fin 8) (u : ℕ), n / 8 = b.val → n % 8 = u → ∀ s : Fin 256,
      RowInv (∑ u' ∈ Finset.range (u + 1), tileW (xarr m c) (qarr m c) b s u')
        (fun c' => ∑ u' ∈ Finset.range (u + 1), tileWX (xarr m c) (qarr m c) b s u' c')
        (shiftAt m c ⟨n, hn⟩ (ix2 s 0)) (weightAt m c ⟨n, hn⟩ (ix2 s 0)) (fun c' => sumAt m c ⟨n, hn⟩ (ix2 s c')) := by
  intro n
  induction n with
  | zero =>
    intro hn b u hb hu s
    obtain rfl : u = 0 := by omega
    exact inv_first m c hx hq ⟨0, hn⟩ rfl b hb s
  | succ n ih =>
    intro hn b u hb hu s
    by_cases h0 : (n + 1) % 8 = 0
    · obtain rfl : u = 0 := by omega
      exact inv_first m c hx hq ⟨n + 1, hn⟩ h0 b hb s
    · obtain ⟨u', rfl⟩ : ∃ u', u = u' + 1 := ⟨u - 1, by omega⟩
      exact inv_step m c hx hq ⟨n + 1, hn⟩ h0 b hb (u' + 1) hu s
        (ih (Nat.lt_of_succ_lt hn) b u' (by omega) (by omega) s)

/-- At a batch's last tile the output block holds the pooled values of the batch. -/
theorem out_value (c : Dev nD) (hx : AllReal (S := SX) (xarr m c)) (hq : AllReal (S := SQ) (qarr m c))
    (t : Fin cfg0.N) (h1 : t.val % 8 = 7) (b : Fin 8) (hb : t.val / 8 = b.val) (s : Fin 256) (c' : Fin 512) :
    outAt m c t (ix3 0 s c') = ((pooledAt (xarr m c) (qarr m c) b s c' : ℝ) : EReal) := by
  rw [out_last m c t h1, quotient_apply]
  have hinv := state_inv m c hx hq t.val t.isLt b 7 hb h1 s
  have hpos : 0 < ∑ u' ∈ Finset.range (7 + 1), tileW (xarr m c) (qarr m c) b s u' := by
    rw [sum_tileW]
    exact sum_exp_pos (by decide) _
  rw [hinv.quot hpos c']
  unfold pooledAt
  rw [sum_tileW, sum_tileWX]

end Cert.KernelIdeal.Gen

end
-- ==== Proof.Final.lean ====
import proofs.«132561_j30648886624911_2_alg».proof.Proof.Invariant

/-! # The kernel's result array is the pooled array

The output window's block is written back at each batch's last tile, and only there. What is written back at the last
tile of batch `b` is the pooled values of batch `b`, that is, block `b` of the pooled array. The eight blocks, one per
batch, cover the result array. So after the run the result array is the pooled array of the two argument arrays,
wherever these hold real numbers. -/

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open Cert.KernelIdeal.Step Cert.Pool

variable (m : (ℓ : Loc nD τ sig) → Buf (Elt Ideal) ℓ) (ρ : Dev nD → PrngReg)

/-- The output block is written back exactly at the batches' last tiles. -/
theorem flush_iff : ∀ t : Fin cfg0.N, (cfg0.win 2).flush t = true ↔ t.val % 8 = 7 :=
  (by decide +kernel : ∀ t : Fin grid0.N, _)

/-- What a batch's last tile writes back is that batch's block of the pooled array. -/
theorem flushed_pooled (c : Dev nD) (hx : AllReal (S := SX) (xarr m c)) (hq : AllReal (S := SQ) (qarr m c))
    (t : Fin cfg0.N) (hf : (cfg0.win 2).flush t = true) :
    (dats m 0 c).flushed 2 t = ((cfg0.win 2).blk t).view.read (Elt Ideal) (pooled (xarr m c) (qarr m c)) := by
  have h1 : t.val % 8 = 7 := (flush_iff t).mp hf
  have hbl : t.val / 8 < 8 := by have := t.isLt; have hN : cfg0.N = 64 := N_0; omega
  obtain ⟨-, -, -, -, -, e0, e1, e2⟩ := index_facts t
  rw [Cert.KernelIdeal.Value.flushed2]
  refine funext fun (y : S1x256x512.Idx) => ?_
  show outAt m c t y = pooled (xarr m c) (qarr m c) (((cfg0.win 2).blk t).view.emb y)
  obtain ⟨z, s, c', rfl⟩ : ∃ (z : Fin 1) (s : Fin 256) (c' : Fin 512), y = ix3 z s c' := ⟨y 0, y 1, y 2, eq_ix3 y⟩
  obtain rfl : z = 0 := Subsingleton.elim _ _
  rw [out_value m c hx hq t h1 ⟨t.val / 8, hbl⟩ rfl s c']
  have he : ((cfg0.win 2).blk t).view.emb (ix3 0 s c') = ix3 (⟨t.val / 8, hbl⟩ : Fin 8) s c' := by
    funext a; apply Fin.ext
    match a with
    | ⟨0, _⟩ => show win0_2.index t (0 : Fin 3) * 1 + 1 * 0 = t.val / 8; omega
    | ⟨1, _⟩ => show win0_2.index t (1 : Fin 3) * 256 + 1 * s.val = s.val; omega
    | ⟨2, _⟩ => show win0_2.index t (2 : Fin 3) * 512 + 1 * c'.val = c'.val; omega
  rw [he, pooled_ix3]

/-- An index of the result array is in point `t`'s block iff each coordinate is in the block's range on its axis. -/
theorem mem_out_blk (t : Fin cfg0.N) (i : S8x256x512.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v0).slice (win0_2.rect t)).set ↔ _
  rw [View.set_slice_whole, Rect.mem_set_unit]
  exact Iff.rfl

/-- Every index of the result array is in the block written back at its batch's last tile. -/
theorem out_covered (i : S8x256x512.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 512 := (i 2).isLt
  have hN : cfg0.N = 64 := N_0
  have hlt : 8 * (i 0).val + 7 < cfg0.N := by omega
  refine ⟨⟨8 * (i 0).val + 7, hlt⟩, (flush_iff _).mpr (by show (8 * (i 0).val + 7) % 8 = 7; omega), ?_⟩
  rw [mem_out_blk]
  obtain ⟨-, -, -, -, -, e0, e1, e2⟩ := index_facts ⟨8 * (i 0).val + 7, hlt⟩
  have e0' : win0_2.index ⟨8 * (i 0).val + 7, hlt⟩ (0 : Fin 3) = (8 * (i 0).val + 7) / 8 := e0
  intro a
  match a with
  | ⟨0, _⟩ =>
    show win0_2.index ⟨8 * (i 0).val + 7, hlt⟩ (0 : Fin 3) * 1 ≤ (i 0).val
      ∧ (i 0).val < win0_2.index ⟨8 * (i 0).val + 7, hlt⟩ (0 : Fin 3) * 1 + 1
    omega
  | ⟨1, _⟩ =>
    show win0_2.index ⟨8 * (i 0).val + 7, hlt⟩ (1 : Fin 3) * 256 ≤ (i 1).val
      ∧ (i 1).val < win0_2.index ⟨8 * (i 0).val + 7, hlt⟩ (1 : Fin 3) * 256 + 256
    omega
  | ⟨2, _⟩ =>
    show win0_2.index ⟨8 * (i 0).val + 7, hlt⟩ (2 : Fin 3) * 512 ≤ (i 2).val
      ∧ (i 2).val < win0_2.index ⟨8 * (i 0).val + 7, hlt⟩ (2 : Fin 3) * 512 + 512
    omega

/-- After the run the result array is the pooled array. -/
theorem result_pooled (c : Dev nD) (hx : AllReal (S := SX) (xarr m c)) (hq : AllReal (S := SQ) (qarr m c)) :
    (dats m 0 c).arrAt 2 cfg0.N = pooled (xarr m c) (qarr m c) :=
  (dats m 0 c).arrAt_eq_of_cover 2 (pooled (xarr m c) (qarr m c)) (fun t hf => flushed_pooled m c hx hq t hf) out_covered

/-- The kernel's run, with the result array named: the pooled array of the arguments, which end unchanged. -/
theorem run_pooled (hreal : ∀ c : Dev nD, AllReal (S := SX) (xarr m c) ∧ AllReal (S := SQ) (qarr m c)) :
    θ_run defs (onTc (τ := τ) (main (F := Ideal))) ⟨m, fun _ => 0, ρ⟩ fun r => ∀ c : Dev nD,
      r.2.mem ((c : Thread nD τ).loc main_v0) = pooled (xarr m c) (qarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_pooled m c (hreal c).1 (hreal c).2), (h c).2⟩)
    (Cert.KernelIdeal.Value.run_blocks m ρ)

end Cert.KernelIdeal.Gen

end
-- ==== Proof.RefValue.lean ====
import proofs.«132561_j30648886624911_2_alg».proof.Proof.Gen.ReferenceIdeal.Read
import proofs.«132561_j30648886624911_2_alg».proof.Proof.PoolSpec
import proofs.«132561_j30648886624911_2_alg».proof.Proof.OnlineSoftmax
import Idealize.ShloMosaic.PureOps.Reduce
import Idealize.ShloMosaic.PureOps.Ideal.Laws
import Idealize.ShloMosaic.Lib.ValueIdx

/-! # The reference's result is the pooled array

The reference forms every logit `(∑ k, x b n k · q s k) · κ`, subtracts the row's largest logit `M` (a real number: the
largest of 32768 reals), exponentiates, divides each weight by the row's sum of weights and contracts the weights
with the token rows. Wherever the arrays hold real numbers this is the softmax-weighted mean with shift `M`, which
does not depend on `M`; and `(∑ k, x · q) · κ = ∑ k, (q · κ) · x` on the reals. -/

noncomputable section

namespace Cert.ReferenceIdeal.RefValue

open Cert.ReferenceIdeal Cert.ReferenceIdeal.Gen Cert.ReferenceIdeal.Read Idealize.ShloMosaic Idealize.ShloMosaic.ValueIdx

open Cert.Pool in
/-- The contraction of token row `n` of batch `b` with query row `s`, read at explicit coordinates. -/
theorem v0_ix3 (x : S8x32768x512.Idx → EReal) (q : S256x512.Idx → EReal) (b : Fin 8) (n : Fin 32768) (s : Fin 256) :
    val_main_v0 (F := Ideal) x q (ix3 b n s) = ∑ k : Fin 512, x (ix3 b n k) * q (ix2 s k) := by
  rw [val_main_v0_apply]
  refine Finset.sum_congr rfl fun k _ => ?_
  have el : lidx_main_v0 (ix3 b n s) k = ix3 b n k := funext fun a => Fin.ext (by match a with | ⟨0, _⟩ => rfl | ⟨1, _⟩ => rfl | ⟨2, _⟩ => rfl)
  have er : ridx_main_v0 (ix3 b n s) k = ix2 s k := funext fun a => Fin.ext (by match a with | ⟨0, _⟩ => rfl | ⟨1, _⟩ => rfl)
  rw [el, er]

open Cert.Pool in
/-- The scaled logit is a real number: `(∑ k, x · q) · κ = ∑ k, (q · κ) · x` on the reals. -/
theorem v3_ix3 (x : S8x32768x512.Idx → EReal) (q : S256x512.Idx → EReal)
    (hx : AllReal (S := SX) x) (hq : AllReal (S := SQ) q) (b : Fin 8) (s : Fin 256) (n : Fin 32768) :
    val_main_v3 (F := Ideal) x q (ix3 b s n) = ((logit x q b s n : ℝ) : EReal) := by
  have e1 : idx_main_v1 (ix3 b s n) = ix3 b n s := funext fun a => Fin.ext (by match a with | ⟨0, _⟩ => rfl | ⟨1, _⟩ => rfl | ⟨2, _⟩ => rfl)
  have hx' : ∀ k : Fin 512, x (ix3 b n k) = ((xr x b n k : ℝ) : EReal) := fun k => hx (ix3 b n k)
  have hq' : ∀ k : Fin 512, q (ix2 s k) = ((qr q s k : ℝ) : EReal) := fun k => hq (ix2 s k)
  rw [val_main_v3_apply, Ideal.mulf_def, val_main_v1_apply, e1, v0_ix3, val_main_v2_apply, val_main_cst_apply,
    Ideal.ofBits_def, scale_coe]
  simp only [hx', hq', ← EReal.coe_mul]
  rw [← coe_finset_sum, ← EReal.coe_mul]
  congr 1
  unfold logit
  rw [Finset.sum_mul]
  refine Finset.sum_congr rfl fun k _ => ?_
  ring

open Cert.Pool in
/-- Every scaled logit is a real number. -/
theorem v3_real (x : S8x32768x512.Idx → EReal) (q : S256x512.Idx → EReal)
    (hx : AllReal (S := SX) x) (hq : AllReal (S := SQ) q) (i : S8x256x32768.Idx) :
    ∃ r : ℝ, val_main_v3 (F := Ideal) x q i = (r : EReal) := by
  obtain ⟨b, s, n, rfl⟩ : ∃ (b : Fin 8) (s : Fin 256) (n : Fin 32768), i = ix3 b s n := ⟨i 0, i 1, i 2, eq_ix3 i⟩
  exact ⟨_, v3_ix3 x q hx hq b s n⟩

open Cert.Pool in
/-- The largest logit of a row is a real number: the maximum of 32768 reals folded from `-∞`. -/
theorem v4_real (x : S8x32768x512.Idx → EReal) (q : S256x512.Idx → EReal)
    (hx : AllReal (S := SX) x) (hq : AllReal (S := SQ) q) (j : S8x256.Idx) :
    ∃ M : ℝ, val_main_v4 (F := Ideal) x q j = (M : EReal) := by
  have h : S8x256x32768.Reduces [2] S8x256 := by decide
  unfold val_main_v4
  rw [Host.reduce_eq_fold_single FloatOps.maximumf _ _ reducesTo_S8x256x32768_S8x256_d2 h h_S_ j,
    val_main_cst_0_apply, Ideal.ofBits_def, ofBits_neg_inf]
  have hL : ∀ k, (val_main_v3 (F := Ideal) x q ∘ h.lift j) k
      = ((((val_main_v3 (F := Ideal) x q ∘ h.lift j) k).toReal : ℝ) : EReal) := by
    intro k
    obtain ⟨r, hr⟩ := v3_real x q hx hq (h.lift j k)
    show val_main_v3 (F := Ideal) x q (h.lift j k) = _
    rw [Function.comp_apply, hr, EReal.toReal_coe]
  exact fold_max_real (T := 32768) (by norm_num) _ _ hL

open Cert.Pool in
/-- The shift the reference subtracts is a real number. -/
theorem v6_real (x : S8x32768x512.Idx → EReal) (q : S256x512.Idx → EReal)
    (hx : AllReal (S := SX) x) (hq : AllReal (S := SQ) q) (j : S8x256.Idx) :
    ∃ M : ℝ, val_main_v6 (F := Ideal) x q j = (M : EReal) := by
  obtain ⟨M, hM⟩ := v4_real x q hx hq j
  refine ⟨M, ?_⟩
  rw [val_main_v6_apply, Ideal.maximumf_def, hM, val_main_v5_apply, val_main_cst_1_apply, Ideal.ofBits_def,
    ofBits_neg_inf]
  exact max_eq_right bot_le

/-- The shift, broadcast back along the token axis. -/
theorem v8_ix3 (x : S8x32768x512.Idx → EReal) (q : S256x512.Idx → EReal) (b : Fin 8) (s : Fin 256) (n : Fin 32768) :
    val_main_v8 (F := Ideal) x q (ix3 b s n) = val_main_v6 (F := Ideal) x q (ix2 b s) := by
  rw [val_main_v8_apply, val_main_v7_apply]
  exact congrArg (val_main_v6 (F := Ideal) x q) (funext fun a => Fin.ext (by match a with | ⟨0, _⟩ => rfl | ⟨1, _⟩ => rfl))

open Cert.Pool in
/-- The unnormalised weight of token row `n`. -/
theorem v10_ix3 (x : S8x32768x512.Idx → EReal) (q : S256x512.Idx → EReal)
    (hx : AllReal (S := SX) x) (hq : AllReal (S := SQ) q) (b : Fin 8) (s : Fin 256) (n : Fin 32768) :
    val_main_v10 (F := Ideal) x q (ix3 b s n)
      = Ideal.exp (((logit x q b s n : ℝ) : EReal) - val_main_v6 (F := Ideal) x q (ix2 b s)) := by
  rw [val_main_v10_apply, Ideal.hostUnary_exp_def, val_main_v9_apply, Ideal.subf_def, v3_ix3 x q hx hq, v8_ix3]

/-- The row's sum of weights, added to a zero and broadcast back along the token axis. -/
theorem v13_ix3 (x : S8x32768x512.Idx → EReal) (q : S256x512.Idx → EReal) (b : Fin 8) (s : Fin 256) (n : Fin 32768) :
    val_main_v13 (F := Ideal) x q (ix3 b s n) = 0 + ∑ n' : Fin 32768, val_main_v10 (F := Ideal) x q (ix3 b s n') := by
  have e : idx_main_v12 (idx_main_v13 (ix3 b s n)) = ix2 b s := funext fun a => Fin.ext (by match a with | ⟨0, _⟩ => rfl | ⟨1, _⟩ => rfl)
  rw [val_main_v13_apply, val_main_v12_apply, e, val_main_v11_apply, val_main_cst_2_apply, Ideal.ofBits_def,
    Ideal.ofBits_zero_f32]
  refine congrArg (0 + ·) (Finset.sum_congr rfl fun k _ => ?_)
  exact congrArg (val_main_v10 (F := Ideal) x q) (funext fun a => Fin.ext (by match a with | ⟨0, _⟩ => rfl | ⟨1, _⟩ => rfl | ⟨2, _⟩ => rfl))

open Cert.Pool in
theorem result_eq (x : S8x32768x512.Idx → EReal) (q : S256x512.Idx → EReal)
    (hx : Cert.Pool.AllReal (S := Cert.Pool.SX) x) (hq : Cert.Pool.AllReal (S := Cert.Pool.SQ) q) :
    val_main_v15 (F := Ideal) x q = Cert.Pool.pooled x q := by
  funext i
  obtain ⟨b, s, c, rfl⟩ : ∃ (b : Fin 8) (s : Fin 256) (c : Fin 512), i = ix3 b s c := ⟨i 0, i 1, i 2, eq_ix3 i⟩
  obtain ⟨M, hM⟩ := v6_real x q hx hq (ix2 b s)
  have key : ∀ n : Fin 32768,
      val_main_v14 (F := Ideal) x q (lidx_main_v15 (ix3 b s c) n) * x (ridx_main_v15 (ix3 b s c) n)
        = Ideal.div (Ideal.exp (((logit x q b s n : ℝ) : EReal) - val_main_v6 (F := Ideal) x q (ix2 b s)))
            (0 + ∑ n' : Fin 32768, Ideal.exp (((logit x q b s n' : ℝ) : EReal) - val_main_v6 (F := Ideal) x q (ix2 b s)))
          * x (ix3 b n c) := by
    intro n
    have el : lidx_main_v15 (ix3 b s c) n = ix3 b s n := funext fun a => Fin.ext (by match a with | ⟨0, _⟩ => rfl | ⟨1, _⟩ => rfl | ⟨2, _⟩ => rfl)
    have er : ridx_main_v15 (ix3 b s c) n = ix3 b n c := funext fun a => Fin.ext (by match a with | ⟨0, _⟩ => rfl | ⟨1, _⟩ => rfl | ⟨2, _⟩ => rfl)
    rw [el, er, val_main_v14_apply, Ideal.hostDivf_def, v13_ix3, v10_ix3 x q hx hq]
    simp only [v10_ix3 x q hx hq]
  rw [pooled_ix3, val_main_v15_apply, Finset.sum_congr rfl fun n _ => key n]
  unfold pooledAt
  exact softmax_mean (by norm_num) (logit x q b s) (fun n => xr x b n c) M
    (fun n => ((logit x q b s n : ℝ) : EReal)) (fun _ => rfl) (fun n => x (ix3 b n c)) (fun n => hx (ix3 b n c))
    (val_main_v6 (F := Ideal) x q (ix2 b s)) hM 0 rfl

end Cert.ReferenceIdeal.RefValue

end
-- ==== Proof.Finite.lean ====
import proofs.«132561_j30648886624911_2_alg».proof.Pre_finite_inputs
import proofs.«132561_j30648886624911_2_alg».proof.Proof.PoolSpec
import Idealize.ShloMosaic.PureOps.Ideal
import Idealize.ShloMosaic.Lib.ReduceAll

/-! # The precondition: every entry of both arrays is a real number

The precondition says that the absolute value of every entry of the token array and of the query array is below
`+∞`. An extended real whose absolute value is below `+∞` is neither infinity, hence a real number. -/

noncomputable section

namespace Cert.Pool

open Idealize.ShloMosaic

/-- An extended real whose absolute value is below `+∞` is a real number. -/
theorem eq_coe_toReal_of_abs_lt_top (a : EReal) (h : max a (-a) < ⊤) : a = ((a.toReal : ℝ) : EReal) := by
  induction a using EReal.rec with
  | bot => simp at h
  | top => simp at h
  | coe r => rw [EReal.toReal_coe]

/-- The rank-0 shape has one index. -/
instance : Subsingleton Cert.Pre_finite_inputs.S_.Idx := ⟨fun a b => funext fun d => d.elim0⟩

/-- One entry of the comparison `|v| < +∞` being set says that the entry of `v` is a real number. -/
theorem entry_real {S : Shape} (v : FVec Ideal S .f32) (hb : Cert.Pre_finite_inputs.S_.BroadcastsInDim S ![]) (i : S.Idx)
    (e : cmpf .olt (Host.absf v)
      (broadcastInDim S ![] hb (constant Cert.Pre_finite_inputs.S_ .f32 0x7F800000#32)) i = 1#1) :
    v i = (((v i).toReal : ℝ) : EReal) := by
  have htop : Ideal.ofBits .f32 0x7F800000#32 = (⊤ : EReal) := by simp [Ideal.ofBits, Ideal.ieee]
  change Ideal.cmp .olt (max (v i) (-(v i))) (Ideal.ofBits .f32 0x7F800000#32) = 1#1 at e
  rw [htop] at e
  apply eq_coe_toReal_of_abs_lt_top
  by_contra hn
  simp [Ideal.cmp, hn] at e

/-- The precondition is the conjunction of two reductions by `and` over all entries; each entry's bit says the entry's
    absolute value is below `+∞`. -/
theorem allReal_of_pre [Cert.Pre_finite_inputs.Facts]
    (x : FVec Ideal Cert.Pre_finite_inputs.S8x32768x512 .f32) (q : FVec Ideal Cert.Pre_finite_inputs.S256x512 .f32)
    (h : Cert.Pre_finite_inputs.fn (F := Ideal) x q = fun _ => 1#1) :
    AllReal (S := SX) x ∧ AllReal (S := SQ) q := by
  have h0 := congrFun h (fun d => d.elim0)
  unfold Cert.Pre_finite_inputs.fn at h0
  dsimp only [andi] at h0
  obtain ⟨h1, h2⟩ := IntOp.andi_eq_one.1 h0
  exact ⟨fun i => entry_real x _ i (Host.reduce_andi_all _ _ _ _ _ h1 i),
    fun i => entry_real q _ i (Host.reduce_andi_all _ _ _ _ _ h2 i)⟩

end Cert.Pool

end
-- ==== Proof.lean ====
/- Attention pooling of token rows by learned queries: the pooling kernel against its reference.

   For batch `b`, query row `s` and token row `n` the logit is the scaled inner product of the query row with the token
   row; the result at column `c` is the softmax-weighted mean of the batch's token rows,
   `(∑ n, exp (L n) · x n c) / (∑ n, exp (L n))`. The reference computes it whole: it subtracts the row's largest logit,
   exponentiates, normalises and contracts with the token rows. The kernel walks each batch's 32768 rows in eight tiles
   of 4096 and carries, per query row, a running shift (the largest logit so far), the sum of the weights and the
   weighted sum of the rows, both taken under that shift; a tile raises the shift, rescales the two sums and adds its
   own terms, and after the last tile the quotient of the two sums is written out. On the extended reals, wherever the
   two argument arrays hold real numbers (the precondition), both are the same quotient: a common shift cancels from
   numerator and denominator, so neither side's maximum matters, and the scale moves across the inner product's sum.

   The three frames: the two kernels' are the generated frame certificates, the reference's is its generated run with
   the result dropped. The kernel's idealization rewrote no operation, so there is nothing to preserve. The algebraic
   claim sets the kernel's run, its result array named as the pooled array (Final), beside the reference's run, whose
   result is the pooled array too (RefValue), under the precondition read as "every entry is real" (Finite). -/
import proofs.«132561_j30648886624911_2_alg».proof.Defs
import proofs.«132561_j30648886624911_2_alg».proof.Proof.Gen.Kernel
import proofs.«132561_j30648886624911_2_alg».proof.Proof.Gen.Kernel.Skeleton
import proofs.«132561_j30648886624911_2_alg».proof.Proof.Gen.Kernel.Launch
import proofs.«132561_j30648886624911_2_alg».proof.Proof.Gen.Kernel.Points
import proofs.«132561_j30648886624911_2_alg».proof.Proof.Gen.Kernel.Frame
import proofs.«132561_j30648886624911_2_alg».proof.Proof.Gen.KernelIdeal
import proofs.«132561_j30648886624911_2_alg».proof.Proof.Gen.KernelIdeal.Skeleton
import proofs.«132561_j30648886624911_2_alg».proof.Proof.Gen.KernelIdeal.Launch
import proofs.«132561_j30648886624911_2_alg».proof.Proof.Gen.KernelIdeal.Points
import proofs.«132561_j30648886624911_2_alg».proof.Proof.Gen.KernelIdeal.Frame
import proofs.«132561_j30648886624911_2_alg».proof.Proof.Gen.ReferenceIdeal
import proofs.«132561_j30648886624911_2_alg».proof.Proof.Gen.Pre_finite_inputs
import proofs.«132561_j30648886624911_2_alg».proof.Proof.Gen.KernelIdeal.Value
import proofs.«132561_j30648886624911_2_alg».proof.Proof.Gen.ReferenceIdeal.Run
import proofs.«132561_j30648886624911_2_alg».proof.Proof.Gen.ReferenceIdeal.Read
import proofs.«132561_j30648886624911_2_alg».proof.Proof.Final
import proofs.«132561_j30648886624911_2_alg».proof.Proof.RefValue
import proofs.«132561_j30648886624911_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel :
    Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run, the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, both programs end with the pooled array of the arguments: the kernel's
    result array by its tile-by-tile accumulation, the reference's by the shift-free form of its softmax. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  have hreal : ∀ c : Dev Cert.KernelIdeal.nD,
      Cert.Pool.AllReal (S := Cert.Pool.SX) (Cert.KernelIdeal.Gen.xarr m c)
        ∧ Cert.Pool.AllReal (S := Cert.Pool.SQ) (Cert.KernelIdeal.Gen.qarr m c) :=
    fun c => Cert.Pool.allReal_of_pre _ _ (hpre c)
  refine ⟨fun c => Cert.Pool.pooled (Cert.KernelIdeal.Gen.xarr m c) (Cert.KernelIdeal.Gen.qarr m c),
    Cert.KernelIdeal.Gen.run_pooled m ρ hreal, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v15_eq _ _).trans
    (Cert.ReferenceIdeal.RefValue.result_eq _ _ (hreal c).1 (hreal c).2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
